-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S800000x2 32) (main_arg2 : FVec F S800000x64 .f32) (main_arg3 : FVec F S192x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S800000x1 : Shape := ⟨2, ![800000, 1]⟩
abbrev S800000 : Shape := ⟨1, ![800000]⟩
abbrev S_ : Shape := ⟨0, ![]⟩
abbrev S800000x192 : Shape := ⟨2, ![800000, 192]⟩
abbrev S1x64 : Shape := ⟨2, ![1, 64]⟩
abbrev S8000x192 : Shape := ⟨2, ![8000, 192]⟩
abbrev S8000x64 : Shape := ⟨2, ![8000, 64]⟩
abbrev S50000x1 : Shape := ⟨2, ![50000, 1]⟩
abbrev S50000x128 : Shape := ⟨2, ![50000, 128]⟩
abbrev S10000x128 : Shape := ⟨2, ![10000, 128]⟩
abbrev S10000x64 : Shape := ⟨2, ![10000, 64]⟩

abbrev nBuf : Space → Nat
  | .hbm => 56
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S800000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x192, .f32⟩
  | .hbm, ⟨34, _⟩ => ⟨S1x64, .f32⟩
  | .hbm, ⟨35, _⟩ => ⟨S1x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S_, .f32⟩
  | .hbm, ⟨42, _⟩ => ⟨S800000x1, .f32⟩
  | .hbm, ⟨43, _⟩ => ⟨S_, .f32⟩
  | .hbm, ⟨44, _⟩ => ⟨S50000x1, .f32⟩
  | .hbm, ⟨45, _⟩ => ⟨S800000x1, .i32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S50000x128, .f32⟩
  | .hbm, ⟨53, _⟩ => ⟨S1x64, .f32⟩
  | .hbm, ⟨54, _⟩ => ⟨S1x64, .f32⟩
  | .hbm, ⟨55, _⟩ => ⟨S50000x64, .f32⟩
  | .local _ .vmem, ⟨0, _⟩ => ⟨S8000x192, .f32⟩
  | .local _ .vmem, ⟨1, _⟩ => ⟨S8000x192, .f32⟩
  | .local _ .vmem, ⟨2, _⟩ => ⟨S192x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x128, .f32⟩
  | .local _ .vmem, ⟨9, _⟩ => ⟨S10000x128, .f32⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  shapeCasts_S64_S1x64 : S64.ShapeCasts S1x64
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x64_S800000x1_S800000x64_1_0_n_n_0_1_164_wf : GatherDims.WF S50000x64 S800000x1 S800000x64 [1] [0] [] [0] [] 1 ![1, 64]
  dot_S8000x192_S192x64_S8000x64_1_0_0_1_n_n_wf : DotDims.WF S8000x192 S192x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x192.size a ≤ S800000x192.size a
  hwx0_0 : ∀ i : grid0.Coords, EltTy.bits .f32 = 32 ∨ (Rect.block (s := S800000x192) S8000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x192_S192x64_S8000x64_1_0_0_1_n_n : DotDims S8000x192 S192x64 S8000x64 where
  lhsContracting := [1]
  rhsContracting := [0]
  lhsNonContracting := [0]
  rhsNonContracting := [1]
  lhsBatch := []
  rhsBatch := []
  wf := dot_S8000x192_S192x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v18) S8000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S800000x1 : Shape := ⟨2, ![800000, 1]⟩
abbrev S800000 : Shape := ⟨1, ![800000]⟩
abbrev S_ : Shape := ⟨0, ![]⟩
abbrev S800000x192 : Shape := ⟨2, ![800000, 192]⟩
abbrev S1x64 : Shape := ⟨2, ![1, 64]⟩
abbrev S50000x1 : Shape := ⟨2, ![50000, 1]⟩
abbrev S50000x128 : Shape := ⟨2, ![50000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S800000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x192, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S800000x1, .f32⟩
  | .hbm, ⟨51, _⟩ => ⟨S_, .f32⟩
  | .hbm, ⟨52, _⟩ => ⟨S50000x1, .f32⟩
  | .hbm, ⟨53, _⟩ => ⟨S800000x1, .i32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S50000x128, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Edge.lean ====
/- The edge perceptron's pipeline (the first pallas_call) on one core, at any float instance: what every
   grid point leaves in the output window's staging buffer, and that the body does leave it there.

   The call walks the 800000 rows of the concatenated edge inputs in 100 blocks of 8000 rows. At a point the
   pipeline hands the body six buffers: the point's block of rows (window 0), the two weight matrices and the
   two bias rows WHOLE (windows 1 to 4: their one block never moves, so they are fetched at the first point
   and found in place afterwards), and the output's buffer (window 5). The body loads the five inputs whole,
   evaluates ONE pure expression of them — the perceptron of the block — and stores it over the whole output
   buffer; it keeps nothing from point to point. So the proof data say: an input's buffer holds its block of
   the array as the call found it, and the output's buffer holds that expression of the five input blocks.
   Everything is stated at a PARAMETER `V`, the buffers' contents when the call is entered. -/
import proofs.«174808_j618475290959_1_alg».proof.Proof.Gen.Kernel.Launch
import proofs.«174808_j618475290959_1_alg».proof.Proof.Gen.Kernel.Skeleton
import proofs.«174808_j618475290959_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a point -/

/-- Window `w`'s block at point `t`: the window's array, as the call found it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's buffer holds its block when the body runs

For any proof data over these arrays whose body leaves an input's block in place: at a point where the window is
fetched the fetch put the block there, and at a point where it is not the block index has not moved since the
point before, whose block is therefore this point's. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

/-- The whole-buffer rectangles the body loads and stores through. -/
abbrev rRows0 : Rect S8000x192 := Rect.unit (s := S8000x192) ![0, 0] S8000x192.size inb_S8000x192_S8000x192_0_0
abbrev rWin0 : Rect S192x64 := Rect.unit (s := S192x64) ![0, 0] S192x64.size inb_S192x64_S192x64_0_0
abbrev rBias0 : Rect S1x64 := Rect.unit (s := S1x64) ![0, 0] S1x64.size inb_S1x64_S1x64_0_0
abbrev rWout0 : Rect S64x64 := Rect.unit (s := S64x64) ![0, 0] S64x64.size inb_S64x64_S64x64_0_0
abbrev rRes0 : Rect S8000x64 := Rect.unit (s := S8000x64) ![0, 0] S8000x64.size inb_S8000x64_S8000x64_0_0

/-- The output's buffer after the body, from the five input buffers: its one store, of the perceptron of the
    loaded block, over the whole buffer. -/
def out0_5 (xa : Vec F S8000x192 .f32) (xb : Vec F S192x64 .f32) (xc : Vec F S1x64 .f32) (xd : Vec F S64x64 .f32) (xe : Vec F S1x64 .f32) : Vec F S8000x64 .f32 :=
  View.canon [⟨rRes0, k0_pay1 (View.ld xa rRows0) (View.ld xb rWin0) (View.ld xc rBias0) (View.ld xd rWout0) (View.ld xe rBias0)⟩]

/-- That one store covers the buffer. -/
theorem cover0_5 (p : Vec F S8000x64 .f32) (y : S8000x64.Idx) :
    ∃ pc ∈ ([⟨rRes0, p⟩] : List (View.Piece (Elt F) S8000x64 .f32)), y ∈ pc.1.set :=
  View.cover_of_tiled [⟨rRes0, p⟩] S8000x64.size (by rfl) y

/-! ## The body's triple -/

set_option maxHeartbeats 4000000 in
/-- From the five input buffers held whole at `xa … xe` and the output's at anything, the body runs to its
    return with the inputs as they were and the output's buffer at `out0_5` of them. -/
theorem sound_kernel0 (c : Dev nD) (E : Set ℕ) (i : grid0.Coords)
    (arg1 : Memref sig .tc .vmem S8000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (xa : Vec F S8000x192 .f32) (xb : Vec F S192x64 .f32) (xc : Vec F S1x64 .f32) (xd : Vec F S64x64 .f32) (xe : Vec F S1x64 .f32)
    (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out0_5 xa xb xc xd xe)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hg⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hg
  ipureintro
  exact View.read_writes_eq_canon _ _ _ (cover0_5 _)

/-! ## The proof data -/

/-- The pipeline's proof data on core `c`: the arrays as the call found them; after the body at point `t` each
    input's buffer at its block and the output's at `out0_5` of the five input blocks; between points only the
    buffers the pipeline does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block, so the body's triple applies; what rides between
    points passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%da, Ha⟩, ⟨%db, Hb⟩, ⟨%dc, Hc⟩, ⟨%dd, Hd⟩, ⟨%de, He⟩, ⟨%dg, Hg⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [Ha]; · iexact Ha
  isplitl [Hb]; · iexact Hb
  isplitl [Hc]; · iexact Hc
  isplitl [Hd]; · iexact Hd
  isplitl [He]; · iexact He
  isplitl [Hg]; · iexists _; iexact Hg
  iintro ⟨Ha, Hb, Hc, Hd, He, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Node.lean ====
/- The node perceptron's pipeline (the second pallas_call) on one core, at any float instance: what every
   grid point leaves in the output window's staging buffer, and that the body does leave it there.

   The call walks the 50000 rows of the concatenated node inputs in 5 blocks of 10000 rows. At a point the
   pipeline hands the body six buffers: the point's block of rows (window 0), the two weight matrices and the
   two bias rows WHOLE (windows 1 to 4: their one block never moves, so they are fetched at the first point
   and found in place afterwards), and the output's buffer (window 5). The body loads the five inputs whole,
   evaluates ONE pure expression of them — the perceptron of the block — and stores it over the whole output
   buffer; it keeps nothing from point to point. So the proof data say: an input's buffer holds its block of
   the array as the call found it, and the output's buffer holds that expression of the five input blocks.
   Everything is stated at a PARAMETER `V`, the buffers' contents when the call is entered. -/
import proofs.«174808_j618475290959_1_alg».proof.Proof.Gen.Kernel.Launch
import proofs.«174808_j618475290959_1_alg».proof.Proof.Gen.Kernel.Skeleton
import proofs.«174808_j618475290959_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a point -/

/-- Window `w`'s block at point `t`: the window's array, as the call found it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's buffer holds its block when the body runs

For any proof data over these arrays whose body leaves an input's block in place: at a point where the window is
fetched the fetch put the block there, and at a point where it is not the block index has not moved since the
point before, whose block is therefore this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole-buffer rectangles the body loads and stores through. -/
abbrev rRows1 : Rect S10000x128 := Rect.unit (s := S10000x128) ![0, 0] S10000x128.size inb_S10000x128_S10000x128_0_0
abbrev rWin1 : Rect S128x64 := Rect.unit (s := S128x64) ![0, 0] S128x64.size inb_S128x64_S128x64_0_0
abbrev rBias1 : Rect S1x64 := Rect.unit (s := S1x64) ![0, 0] S1x64.size inb_S1x64_S1x64_0_0
abbrev rWout1 : Rect S64x64 := Rect.unit (s := S64x64) ![0, 0] S64x64.size inb_S64x64_S64x64_0_0
abbrev rRes1 : Rect S10000x64 := Rect.unit (s := S10000x64) ![0, 0] S10000x64.size inb_S10000x64_S10000x64_0_0

/-- The output's buffer after the body, from the five input buffers: its one store, of the perceptron of the
    loaded block, over the whole buffer. -/
def out1_5 (xa : Vec F S10000x128 .f32) (xb : Vec F S128x64 .f32) (xc : Vec F S1x64 .f32) (xd : Vec F S64x64 .f32) (xe : Vec F S1x64 .f32) : Vec F S10000x64 .f32 :=
  View.canon [⟨rRes1, k1_pay1 (View.ld xa rRows1) (View.ld xb rWin1) (View.ld xc rBias1) (View.ld xd rWout1) (View.ld xe rBias1)⟩]

/-- That one store covers the buffer. -/
theorem cover1_5 (p : Vec F S10000x64 .f32) (y : S10000x64.Idx) :
    ∃ pc ∈ ([⟨rRes1, p⟩] : List (View.Piece (Elt F) S10000x64 .f32)), y ∈ pc.1.set :=
  View.cover_of_tiled [⟨rRes1, p⟩] S10000x64.size (by rfl) y

/-! ## The body's triple -/

set_option maxHeartbeats 4000000 in
/-- From the five input buffers held whole at `xa … xe` and the output's at anything, the body runs to its
    return with the inputs as they were and the output's buffer at `out1_5` of them. -/
theorem sound_kernel1 (c : Dev nD) (E : Set ℕ) (i : grid1.Coords)
    (arg1 : Memref sig .tc .vmem S10000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (xa : Vec F S10000x128 .f32) (xb : Vec F S128x64 .f32) (xc : Vec F S1x64 .f32) (xd : Vec F S64x64 .f32) (xe : Vec F S1x64 .f32)
    (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out1_5 xa xb xc xd xe)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hg⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hg
  ipureintro
  exact View.read_writes_eq_canon _ _ _ (cover1_5 _)

/-! ## The proof data -/

/-- The pipeline's proof data on core `c`: the arrays as the call found them; after the body at point `t` each
    input's buffer at its block and the output's at `out1_5` of the five input blocks; between points only the
    buffers the pipeline does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block, so the body's triple applies; what rides between
    points passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%da, Ha⟩, ⟨%db, Hb⟩, ⟨%dc, Hc⟩, ⟨%dd, Hd⟩, ⟨%de, He⟩, ⟨%dg, Hg⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Ha]; · iexact Ha
  isplitl [Hb]; · iexact Hb
  isplitl [Hc]; · iexact Hc
  isplitl [Hd]; · iexact Hd
  isplitl [He]; · iexact He
  isplitl [Hg]; · iexists _; iexact Hg
  iintro ⟨Ha, Hb, Hc, Hd, He, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/- The whole program on the TensorCores, item by item: host operations, the edge perceptron's pallas_call, host
   operations, the node perceptron's pallas_call.

   Between two items a core holds every unscoped buffer at known contents: the launch memory; then what the first
   stretch of host operations computes from it; then the same with the edge call's output array at what the call's
   write-backs leave (`edgeOut`: the pipeline's fold of the blocks each point wrote); then what the second stretch
   computes from that; then the same with the node call's output array at `nodeOut`. Beside the buffers ride the
   core's generator register, at some state, and its ledger of units owed, empty: neither kernel draws a random
   number or signals anyone. Each pallas_call is entered by taking its six arrays out of the buffers, and left by
   putting them back: the five inputs as found, the output at the fold of its blocks. No item writes an argument
   array, so every argument ends as launched (the frame), and the two result arrays end at `nodeOut` and `edgeOut`. -/
import proofs.«174808_j618475290959_1_alg».proof.Proof.Gen.Kernel.Regions
import proofs.«174808_j618475290959_1_alg».proof.Proof.K.Edge
import proofs.«174808_j618475290959_1_alg».proof.Proof.K.Node
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- When the edge call is entered: the launch memory after the first stretch of host operations, read at the
    TensorCore's references. -/
abbrev atEdge (c : Dev nD) (b : Ref sig .tc) : Buf (Elt F) ((c : Thread nD τ).loc b) := V1 m c b

/-- What the edge call leaves in its output array: the fold of the blocks its points write back. -/
def edgeOut (c : Dev nD) : Buf (Elt F) ((c : Thread nD τ).loc main_v21) := (dat0 (atEdge m) c).arrAt 5 cfg0.N

/-- After the edge call: as entered, but for its output array. -/
def afterEdge (c : Dev nD) : Valuation τ sig (Elt F) := Function.update (V1 m c) main_v21 (edgeOut m c)

theorem afterEdge_out (c : Dev nD) : afterEdge m c main_v21 = edgeOut m c := by
  unfold afterEdge; exact Function.update_self ..
theorem afterEdge_ne (c : Dev nD) (b : Ref sig .tc) (h : b ≠ main_v21) : afterEdge m c b = V1 m c b := by
  unfold afterEdge
  exact Function.update_of_ne (StableHlo.devRef_ne_of_ne h : (Proc.devRef .tc b : DevRef τ sig) ≠ Proc.devRef .tc main_v21) ..

/-- When the node call is entered: after the second stretch of host operations. -/
abbrev toNode (c : Dev nD) : Valuation τ sig (Elt F) := StableHlo.after hostOps1 (afterEdge m c)
abbrev atNode (c : Dev nD) (b : Ref sig .tc) : Buf (Elt F) ((c : Thread nD τ).loc b) := toNode m c b

/-- What the node call leaves in its output array. -/
def nodeOut (c : Dev nD) : Buf (Elt F) ((c : Thread nD τ).loc main_v36) := (dat1 (atNode m) c).arrAt 5 cfg1.N

/-- After the node call: as entered, but for its output array. -/
def afterNode (c : Dev nD) : Valuation τ sig (Elt F) := Function.update (toNode m c) main_v36 (nodeOut m c)

theorem afterNode_out (c : Dev nD) : afterNode m c main_v36 = nodeOut m c := by
  unfold afterNode; exact Function.update_self ..
theorem afterNode_ne (c : Dev nD) (b : Ref sig .tc) (h : b ≠ main_v36) : afterNode m c b = toNode m c b := by
  unfold afterNode
  exact Function.update_of_ne (StableHlo.devRef_ne_of_ne h : (Proc.devRef .tc b : DevRef τ sig) ≠ Proc.devRef .tc main_v36) ..

/-- What the two calls leave, as the table of unknowns the conditional frame is stated over: after the node call
    (item 3) the contents `afterNode`, before it `afterEdge`. -/
def contents : Outs (F := F) := fun J r c => if J = 4 then afterNode m c r else afterEdge m c r

theorem V2_eq (c : Dev nD) : V2 m (contents m) c = afterEdge m c := by
  show Function.update (V1 m c) main_v21 (afterEdge m c main_v21) = afterEdge m c
  rw [afterEdge_out]; rfl
theorem V3_eq (c : Dev nD) : V3 m (contents m) c = toNode m c := by
  show StableHlo.after hostOps1 (V2 m (contents m) c) = _
  rw [V2_eq]
theorem V4_eq (c : Dev nD) : V4 m (contents m) c = afterNode m c := by
  show Function.update (V3 m (contents m) c) main_v36 (afterNode m c main_v36) = afterNode m c
  rw [afterNode_out, V3_eq]; rfl

/-! ## The proof data of the two pipelines, each at its call's entry contents -/

def pdats : (p : Fin 2) → (c : Dev nD) → Dat τ (Elt F) Unit ℕ (UR sig nD τ) ℕ (cfgs p) c
  | ⟨0, _⟩ => fun c => dat0 (atEdge m) c
  | ⟨1, _⟩ => fun c => dat1 (atNode m) c

abbrev noVariants : Variants := Variants.none
/-- No core owes another anything: no level is assigned. -/
abbrev noPairs : GSem nD τ sig → Finset Unit := fun _ => ∅
abbrev noLevel : GSem nD τ sig → Unit → ℕ := fun _ _ => 0

/-- What rides beside the buffers through every item: the generator register at some state, nothing owed. -/
def beside (c : Dev nD) : sProp 𝕄 := iprop((∃ r, prngReg c r) ∗ ∃ W, owes (c : Thread nD τ) (0 : CellTallies nD τ sig Unit) W)

/-! ## The two calls as segments -/

set_option maxHeartbeats 4000000 in
set_option backward.isDefEq.respectTransparency.types false in
/-- The edge call: entered from every unscoped buffer at `V1`, left at `afterEdge`. -/
def edgeSeg : RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (atEdge m) c).loose
  hwaits := Pipeline.hwaits_of_owed_zero _ _ _ _ noPairs noLevel 0 fun _ _ => rfl
  pre c := iprop(StableHlo.held (c : Thread nD τ) (Pipeline.ucRefs τ sig) (V1 m c) ∗ beside c)
  post c := iprop(StableHlo.held (c : Thread nD τ) (Pipeline.ucRefs τ sig) (afterEdge m c) ∗ beside c)
  X c := iprop(∃ r, prngReg c r)
  Y c := iprop(∃ r, prngReg c r)
  Z c := Pipeline.unscopedRest (Ix := Unit) (Name := ℕ) (U := UR sig nD τ) (Lvl := ℕ) spec0 c (atEdge m c)
  hentry c := by
    unfold beside
    rw [Pipeline.ownSems0_none]
    have hsplit := Pipeline.arrays_of_unscopedBufs (p := 0) (pcfgs (F := F)) adm (pdats m) launch0.win launch0.arr_whole c
      ((pdats m 0 c).share_full fun _ => rfl) (atEdge m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atEdge m c) (fun b => afterEdge m c b) ((pdats m 0 c).arrAt · cfg0.N)
      (fun w => by
        fin_cases w
        · exact ((pdats m 0 c).arrAt_in 0 rfl _).trans (afterEdge_ne m c main_v18 (by decide)).symm
        · exact ((pdats m 0 c).arrAt_in 1 rfl _).trans (afterEdge_ne m c main_arg3 (by decide)).symm
        · exact ((pdats m 0 c).arrAt_in 2 rfl _).trans (afterEdge_ne m c main_v19 (by decide)).symm
        · exact ((pdats m 0 c).arrAt_in 3 rfl _).trans (afterEdge_ne m c main_arg5 (by decide)).symm
        · exact ((pdats m 0 c).arrAt_in 4 rfl _).trans (afterEdge_ne m c main_v20 (by decide)).symm
        · exact (afterEdge_out m c).symm)
      (fun b hb => afterEdge_ne m c b fun h => hb (h ▸ Finset.mem_image.mpr ⟨5, Finset.mem_univ _, rfl⟩))
    rw [Pipeline.unscopedBufs_held] at hjoin
    unfold beside
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- The node call: entered from every unscoped buffer at `toNode`, left at `afterNode`. -/
def nodeSeg : RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (atNode m) c).loose
  hwaits := Pipeline.hwaits_of_owed_zero _ _ _ _ noPairs noLevel 1 fun _ _ => rfl
  pre c := iprop(StableHlo.held (c : Thread nD τ) (Pipeline.ucRefs τ sig) (toNode m c) ∗ beside c)
  post c := iprop(StableHlo.held (c : Thread nD τ) (Pipeline.ucRefs τ sig) (afterNode m c) ∗ beside c)
  X c := iprop(∃ r, prngReg c r)
  Y c := iprop(∃ r, prngReg c r)
  Z c := Pipeline.unscopedRest (Ix := Unit) (Name := ℕ) (U := UR sig nD τ) (Lvl := ℕ) spec1 c (atNode m c)
  hentry c := by
    unfold beside
    rw [Pipeline.ownSems0_none]
    have hsplit := Pipeline.arrays_of_unscopedBufs (p := 1) (pcfgs (F := F)) adm (pdats m) launch1.win launch1.arr_whole c
      ((pdats m 1 c).share_full fun _ => rfl) (atNode m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atNode m c) (fun b => afterNode m c b) ((pdats m 1 c).arrAt · cfg1.N)
      (fun w => by
        fin_cases w
        · exact ((pdats m 1 c).arrAt_in 0 rfl _).trans (afterNode_ne m c main_v33 (by decide)).symm
        · exact ((pdats m 1 c).arrAt_in 1 rfl _).trans (afterNode_ne m c main_arg7 (by decide)).symm
        · exact ((pdats m 1 c).arrAt_in 2 rfl _).trans (afterNode_ne m c main_v34 (by decide)).symm
        · exact ((pdats m 1 c).arrAt_in 3 rfl _).trans (afterNode_ne m c main_arg9 (by decide)).symm
        · exact ((pdats m 1 c).arrAt_in 4 rfl _).trans (afterNode_ne m c main_v35 (by decide)).symm
        · exact (afterNode_out m c).symm)
      (fun b hb => afterNode_ne m c b fun h => hb (h ▸ Finset.mem_image.mpr ⟨5, Finset.mem_univ _, rfl⟩))
    rw [Pipeline.unscopedBufs_held] at hjoin
    unfold beside
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost state: the pipelines' cells and launch tokens, nothing more. -/
abbrev launchGhost : UR sig nD τ := initOf (Pipeline.cells cfgs cellOf_inj) (Pipeline.launchToks cfgs cellOf_inj)

theorem launchGhost_deal :
    (ownU (launchGhost) : sProp 𝕄) ⊢ |={Set.univ}=> iprop(BI.own ((emb₁ : Emb (UR sig nD τ) 𝕄) launchGhost) ∗ bigSep Finset.univ (fun _ : Dev nD => (BI.emp : sProp 𝕄))) := by
  iintro Hu; imodintro
  isplitl [Hu]
  · iapply (show (ownU launchGhost : sProp 𝕄) ⊢ BI.own ((emb₁ : Emb (UR sig nD τ) 𝕄) launchGhost) from .rfl)
    iexact Hu
  iapply (show (BI.emp : sProp 𝕄) ⊢ bigSep Finset.univ (fun _ : Dev nD => (BI.emp : sProp 𝕄)) from by rw [BI.bigSep_emp_const])
  iempintro

/-- What the launch hands every core besides its buffers makes `beside` on every core. -/
theorem beside_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => beside (F := F) c) : sProp 𝕄) := by
  have hc : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ beside (F := F) c := fun c => by
    unfold beside
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => beside (F := F) c) : sProp 𝕄) :=
    bigSep_mono fun c _ => hc c
  iintro ⟨H, -⟩
  ihave H' := hmono $$ H
  imodintro
  iexact H'

/-- What rides along ends owing nothing. -/
theorem beside_owes (c : Dev nD) : beside (F := F) c ⊢ (iprop(∃ W, owes (c : Thread nD τ) (0 : CellTallies nD τ sig Unit) W) : sProp 𝕄) := by
  unfold beside
  iintro ⟨-, HO⟩; iexact HO

/-- The calls' records are entered from, and leave, the thread states the conditional frame is stated over. -/
theorem edge_pre (c : Dev nD) : iprop(StableHlo.held (c : Thread nD τ) (Pipeline.ucRefs τ sig) (V1 m c) ∗ beside c) ⊢ (edgeSeg m).pre c := .rfl
theorem edge_post (c : Dev nD) : (edgeSeg m).post c ⊢ iprop(StableHlo.held (c : Thread nD τ) (Pipeline.ucRefs τ sig) (V2 m (contents m) c) ∗ beside c) := by
  rw [V2_eq]; exact .rfl
theorem node_pre (c : Dev nD) : iprop(StableHlo.held (c : Thread nD τ) (Pipeline.ucRefs τ sig) (V3 m (contents m) c) ∗ beside c) ⊢ (nodeSeg m).pre c := by
  rw [V3_eq]; exact .rfl
theorem node_post (c : Dev nD) : (nodeSeg m).post c ⊢ iprop(StableHlo.held (c : Thread nD τ) (Pipeline.ucRefs τ sig) (V4 m (contents m) c) ∗ beside c) := by
  rw [V4_eq]; exact .rfl

/-- THE FRAME at any float instance: every weakly fair execution of the program terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb (UR sig nD τ) 𝕄) () noVariants noPairs noLevel (fun _ _ => rfl) ρ (contents m) (pdats m)
    (0 : Dev nD → CellTallies nD τ sig Unit) (fun _ => (BI.emp : sProp 𝕄)) launchGhost launchGhost_deal
    (fun _ c => beside c) (beside_init ρ) beside_owes
    (edgeSeg m) (edge_pre m) (edge_post m)
    (nodeSeg m) (node_pre m) (node_post m)

/-! ## The run with the results named -/

set_option backward.isDefEq.respectTransparency.types false in
/-- The same launch, read further at the end: besides the arguments, the node call's output array holds `nodeOut`
    and the edge call's `edgeOut`. -/
theorem run_results : θ_run defs (onTc (τ := τ) (main (F := F))) ⟨m, fun _ => 0, ρ⟩ (fun r => ∀ c : Dev nD,
      r.2.mem ((c.tc : Thread nD τ).loc main_v36) = nodeOut m c
      ∧ r.2.mem ((c.tc : Thread nD τ).loc main_v21) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj (emb₁ : Emb (UR sig nD τ) 𝕄) defs₀ noVariants noPairs noLevel m ρ main
    (segs m (contents m) noVariants noPairs noLevel (fun _ c => beside c) () (pdats m) (edgeSeg m) (nodeSeg m))
    (fun c Q => by
      rewrite [main_chain c, Seg.run_eq_chain,
        show (segs m (contents m) noVariants noPairs noLevel (fun _ c => beside c) () (pdats m) (edgeSeg m) (nodeSeg m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl) (fun _ => (BI.emp : sProp 𝕄)) launchGhost launchGhost_deal
    (T₀ := fun c => iprop(StableHlo.held (c : Thread nD τ) (Pipeline.ucRefs τ sig) (V0 m c) ∗ beside c))
    (Tₙ := fun c => StableHlo.held (c : Thread nD τ) (Pipeline.ucRefs τ sig) (V4 m (contents m) c))
    (hch := fun c => ⟨.rfl, edge_pre m c, edge_post m c, node_pre m c, (node_post m c).trans (sep_mono .rfl (beside_owes c))⟩)
    (hinit := ?_) (QY := fun c s => s.mem ((c.tc : Thread nD τ).loc main_v36) = nodeOut m c ∧ s.mem ((c.tc : Thread nD τ).loc main_v21) = edgeOut m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are held at the launch memory; the rest makes `beside` on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (beside_init (F := F) ρ) $$ [Hr Hla] with HE
    · isplitl [Hr]; · iexact Hr
      iexact Hla
    imodintro
    rw [bigSep_sep']
    isplitl [Hh]; · iexact Hh
    iexact HE
  · -- the end: every buffer read off the last contents; the results there are the calls' outputs
    unfold StableHlo.held
    iintro ⟨Hh, HSI⟩
    ihave Hr := (pointsTo_read_all (Pipeline.ucRefs τ sig) (fun b => ((c : Thread nD τ).1, b)) (V4 m (contents m) c) s') $$ [Hh HSI]
    · isplitl [Hh] <;> iassumption
    icases Hr with ⟨%h, HSI⟩
    imodintro
    isplitr
    · ipureintro
      exact ⟨(h (Proc.devRef .tc main_v36) (Finset.mem_filter.mpr ⟨StableHlo.devRef_mem_tcRefs main_v36, by decide⟩)).trans
          ((congrFun (V4_eq m c) (Proc.devRef .tc main_v36)).trans (afterNode_out m c)),
        (h (Proc.devRef .tc main_v21) (Finset.mem_filter.mpr ⟨StableHlo.devRef_mem_tcRefs main_v21, by decide⟩)).trans
          ((V4_of m (contents m) c main_v21 (by decide)).trans ((V3_of m (contents m) c main_v21 (by decide)).trans
            ((congrFun (V2_eq m c) (Proc.devRef .tc main_v21)).trans (afterEdge_out m c)))),
        (h (Proc.devRef .tc main_arg0) (Finset.mem_filter.mpr ⟨StableHlo.devRef_mem_tcRefs main_arg0, by decide⟩)).trans (V4_main_arg0 m (contents m) c),
        (h (Proc.devRef .tc main_arg1) (Finset.mem_filter.mpr ⟨StableHlo.devRef_mem_tcRefs main_arg1, by decide⟩)).trans (V4_main_arg1 m (contents m) c),
        (h (Proc.devRef .tc main_arg2) (Finset.mem_filter.mpr ⟨StableHlo.devRef_mem_tcRefs main_arg2, by decide⟩)).trans (V4_main_arg2 m (contents m) c),
        (h (Proc.devRef .tc main_arg3) (Finset.mem_filter.mpr ⟨StableHlo.devRef_mem_tcRefs main_arg3, by decide⟩)).trans (V4_main_arg3 m (contents m) c),
        (h (Proc.devRef .tc main_arg4) (Finset.mem_filter.mpr ⟨StableHlo.devRef_mem_tcRefs main_arg4, by decide⟩)).trans (V4_main_arg4 m (contents m) c),
        (h (Proc.devRef .tc main_arg5) (Finset.mem_filter.mpr ⟨StableHlo.devRef_mem_tcRefs main_arg5, by decide⟩)).trans (V4_main_arg5 m (contents m) c),
        (h (Proc.devRef .tc main_arg6) (Finset.mem_filter.mpr ⟨StableHlo.devRef_mem_tcRefs main_arg6, by decide⟩)).trans (V4_main_arg6 m (contents m) c),
        (h (Proc.devRef .tc main_arg7) (Finset.mem_filter.mpr ⟨StableHlo.devRef_mem_tcRefs main_arg7, by decide⟩)).trans (V4_main_arg7 m (contents m) c),
        (h (Proc.devRef .tc main_arg8) (Finset.mem_filter.mpr ⟨StableHlo.devRef_mem_tcRefs main_arg8, by decide⟩)).trans (V4_main_arg8 m (contents m) c),
        (h (Proc.devRef .tc main_arg9) (Finset.mem_filter.mpr ⟨StableHlo.devRef_mem_tcRefs main_arg9, by decide⟩)).trans (V4_main_arg9 m (contents m) c),
        (h (Proc.devRef .tc main_arg10) (Finset.mem_filter.mpr ⟨StableHlo.devRef_mem_tcRefs main_arg10, by decide⟩)).trans (V4_main_arg10 m (contents m) c)⟩
    · iexact HSI

end Cert.Kernel.Hand

end
-- ==== Proof.KI.Edge.lean ====
/- The edge perceptron's pipeline (the first pallas_call) on one core, at any float instance: what every
   grid point leaves in the output window's staging buffer, and that the body does leave it there.

   The call walks the 800000 rows of the concatenated edge inputs in 100 blocks of 8000 rows. At a point the
   pipeline hands the body six buffers: the point's block of rows (window 0), the two weight matrices and the
   two bias rows WHOLE (windows 1 to 4: their one block never moves, so they are fetched at the first point
   and found in place afterwards), and the output's buffer (window 5). The body loads the five inputs whole,
   evaluates ONE pure expression of them — the perceptron of the block — and stores it over the whole output
   buffer; it keeps nothing from point to point. So the proof data say: an input's buffer holds its block of
   the array as the call found it, and the output's buffer holds that expression of the five input blocks.
   Everything is stated at a PARAMETER `V`, the buffers' contents when the call is entered. -/
import proofs.«174808_j618475290959_1_alg».proof.Proof.Gen.KernelIdeal.Launch
import proofs.«174808_j618475290959_1_alg».proof.Proof.Gen.KernelIdeal.Skeleton
import proofs.«174808_j618475290959_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a point -/

/-- Window `w`'s block at point `t`: the window's array, as the call found it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's buffer holds its block when the body runs

For any proof data over these arrays whose body leaves an input's block in place: at a point where the window is
fetched the fetch put the block there, and at a point where it is not the block index has not moved since the
point before, whose block is therefore this point's. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output's buffer -/

/-- The whole-buffer rectangles the body loads and stores through. -/
abbrev rRows0 : Rect S8000x192 := Rect.unit (s := S8000x192) ![0, 0] S8000x192.size inb_S8000x192_S8000x192_0_0
abbrev rWin0 : Rect S192x64 := Rect.unit (s := S192x64) ![0, 0] S192x64.size inb_S192x64_S192x64_0_0
abbrev rBias0 : Rect S1x64 := Rect.unit (s := S1x64) ![0, 0] S1x64.size inb_S1x64_S1x64_0_0
abbrev rWout0 : Rect S64x64 := Rect.unit (s := S64x64) ![0, 0] S64x64.size inb_S64x64_S64x64_0_0
abbrev rRes0 : Rect S8000x64 := Rect.unit (s := S8000x64) ![0, 0] S8000x64.size inb_S8000x64_S8000x64_0_0

/-- The output's buffer after the body, from the five input buffers: its one store, of the perceptron of the
    loaded block, over the whole buffer. -/
def out0_5 (xa : Vec F S8000x192 .f32) (xb : Vec F S192x64 .f32) (xc : Vec F S1x64 .f32) (xd : Vec F S64x64 .f32) (xe : Vec F S1x64 .f32) : Vec F S8000x64 .f32 :=
  View.canon [⟨rRes0, k0_pay1 (View.ld xa rRows0) (View.ld xb rWin0) (View.ld xc rBias0) (View.ld xd rWout0) (View.ld xe rBias0)⟩]

/-- That one store covers the buffer. -/
theorem cover0_5 (p : Vec F S8000x64 .f32) (y : S8000x64.Idx) :
    ∃ pc ∈ ([⟨rRes0, p⟩] : List (View.Piece (Elt F) S8000x64 .f32)), y ∈ pc.1.set :=
  View.cover_of_tiled [⟨rRes0, p⟩] S8000x64.size (by rfl) y

/-! ## The body's triple -/

set_option maxHeartbeats 4000000 in
/-- From the five input buffers held whole at `xa … xe` and the output's at anything, the body runs to its
    return with the inputs as they were and the output's buffer at `out0_5` of them. -/
theorem sound_kernel0 (c : Dev nD) (E : Set ℕ) (i : grid0.Coords)
    (arg1 : Memref sig .tc .vmem S8000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (xa : Vec F S8000x192 .f32) (xb : Vec F S192x64 .f32) (xc : Vec F S1x64 .f32) (xd : Vec F S64x64 .f32) (xe : Vec F S1x64 .f32)
    (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out0_5 xa xb xc xd xe)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hg⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hg
  ipureintro
  exact View.read_writes_eq_canon _ _ _ (cover0_5 _)

/-! ## The proof data -/

/-- The pipeline's proof data on core `c`: the arrays as the call found them; after the body at point `t` each
    input's buffer at its block and the output's at `out0_5` of the five input blocks; between points only the
    buffers the pipeline does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's buffer holds its block, so the body's triple applies; what rides between
    points passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%da, Ha⟩, ⟨%db, Hb⟩, ⟨%dc, Hc⟩, ⟨%dd, Hd⟩, ⟨%de, He⟩, ⟨%dg, Hg⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [Ha]; · iexact Ha
  isplitl [Hb]; · iexact Hb
  isplitl [Hc]; · iexact Hc
  isplitl [Hd]; · iexact Hd
  isplitl [He]; · iexact He
  isplitl [Hg]; · iexists _; iexact Hg
  iintro ⟨Ha, Hb, Hc, Hd, He, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Node.lean ====
/- The node perceptron's pipeline (the second pallas_call) on one core, at any float instance: what every
   grid point leaves in the output window's staging buffer, and that the body does leave it there.

   The call walks the 50000 rows of the concatenated node inputs in 5 blocks of 10000 rows. At a point the
   pipeline hands the body six buffers: the point's block of rows (window 0), the two weight matrices and the
   two bias rows WHOLE (windows 1 to 4: their one block never moves, so they are fetched at the first point
   and found in place afterwards), and the output's buffer (window 5). The body loads the five inputs whole,
   evaluates ONE pure expression of them — the perceptron of the block — and stores it over the whole output
   buffer; it keeps nothing from point to point. So the proof data say: an input's buffer holds its block of
   the array as the call found it, and the output's buffer holds that expression of the five input blocks.
   Everything is stated at a PARAMETER `V`, the buffers' contents when the call is entered. -/
import proofs.«174808_j618475290959_1_alg».proof.Proof.Gen.KernelIdeal.Launch
import proofs.«174808_j618475290959_1_alg».proof.Proof.Gen.KernelIdeal.Skeleton
import proofs.«174808_j618475290959_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a point -/

/-- Window `w`'s block at point `t`: the window's array, as the call found it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's buffer holds its block when the body runs

For any proof data over these arrays whose body leaves an input's block in place: at a point where the window is
fetched the fetch put the block there, and at a point where it is not the block index has not moved since the
point before, whose block is therefore this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output's buffer -/

/-- The whole-buffer rectangles the body loads and stores through. -/
abbrev rRows1 : Rect S10000x128 := Rect.unit (s := S10000x128) ![0, 0] S10000x128.size inb_S10000x128_S10000x128_0_0
abbrev rWin1 : Rect S128x64 := Rect.unit (s := S128x64) ![0, 0] S128x64.size inb_S128x64_S128x64_0_0
abbrev rBias1 : Rect S1x64 := Rect.unit (s := S1x64) ![0, 0] S1x64.size inb_S1x64_S1x64_0_0
abbrev rWout1 : Rect S64x64 := Rect.unit (s := S64x64) ![0, 0] S64x64.size inb_S64x64_S64x64_0_0
abbrev rRes1 : Rect S10000x64 := Rect.unit (s := S10000x64) ![0, 0] S10000x64.size inb_S10000x64_S10000x64_0_0

/-- The output's buffer after the body, from the five input buffers: its one store, of the perceptron of the
    loaded block, over the whole buffer. -/
def out1_5 (xa : Vec F S10000x128 .f32) (xb : Vec F S128x64 .f32) (xc : Vec F S1x64 .f32) (xd : Vec F S64x64 .f32) (xe : Vec F S1x64 .f32) : Vec F S10000x64 .f32 :=
  View.canon [⟨rRes1, k1_pay1 (View.ld xa rRows1) (View.ld xb rWin1) (View.ld xc rBias1) (View.ld xd rWout1) (View.ld xe rBias1)⟩]

/-- That one store covers the buffer. -/
theorem cover1_5 (p : Vec F S10000x64 .f32) (y : S10000x64.Idx) :
    ∃ pc ∈ ([⟨rRes1, p⟩] : List (View.Piece (Elt F) S10000x64 .f32)), y ∈ pc.1.set :=
  View.cover_of_tiled [⟨rRes1, p⟩] S10000x64.size (by rfl) y

/-! ## The body's triple -/

set_option maxHeartbeats 4000000 in
/-- From the five input buffers held whole at `xa … xe` and the output's at anything, the body runs to its
    return with the inputs as they were and the output's buffer at `out1_5` of them. -/
theorem sound_kernel1 (c : Dev nD) (E : Set ℕ) (i : grid1.Coords)
    (arg1 : Memref sig .tc .vmem S10000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (xa : Vec F S10000x128 .f32) (xb : Vec F S128x64 .f32) (xc : Vec F S1x64 .f32) (xd : Vec F S64x64 .f32) (xe : Vec F S1x64 .f32)
    (K : PUnit → sProp 𝕄) :
    iprop(owns (c : Thread nD τ) arg1 fullShare xa ∗ owns (c : Thread nD τ) arg2 fullShare xb ∗ owns (c : Thread nD τ) arg3 fullShare xc
        ∗ owns (c : Thread nD τ) arg4 fullShare xd ∗ owns (c : Thread nD τ) arg5 fullShare xe ∗ (∃ d, owns (c : Thread nD τ) arg6 fullShare d)
        ∗ (iprop(owns (c : Thread nD τ) arg1 fullShare xa ∗ owns (c : Thread nD τ) arg2 fullShare xb ∗ owns (c : Thread nD τ) arg3 fullShare xc
            ∗ owns (c : Thread nD τ) arg4 fullShare xd ∗ owns (c : Thread nD τ) arg5 fullShare xe
            ∗ owns (c : Thread nD τ) arg6 fullShare (out1_5 xa xb xc xd xe)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%dg, %fg, -, Hg⟩, Hk⟩
  subst hfa hfb hfc hfd hfe
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  iexists _; isplitr
  swap; · iexact Hg
  ipureintro
  exact View.read_writes_eq_canon _ _ _ (cover1_5 _)

/-! ## The proof data -/

/-- The pipeline's proof data on core `c`: the arrays as the call found them; after the body at point `t` each
    input's buffer at its block and the output's at `out1_5` of the five input blocks; between points only the
    buffers the pipeline does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block, so the body's triple applies; what rides between
    points passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%da, Ha⟩, ⟨%db, Hb⟩, ⟨%dc, Hc⟩, ⟨%dd, Hd⟩, ⟨%de, He⟩, ⟨%dg, Hg⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [Ha]; · iexact Ha
  isplitl [Hb]; · iexact Hb
  isplitl [Hc]; · iexact Hc
  isplitl [Hd]; · iexact Hd
  isplitl [He]; · iexact He
  isplitl [Hg]; · iexists _; iexact Hg
  iintro ⟨Ha, Hb, Hc, Hd, He, Hg⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  iexact Hg

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/- The whole program on the TensorCores, item by item: host operations, the edge perceptron's pallas_call, host
   operations, the node perceptron's pallas_call.

   Between two items a core holds every unscoped buffer at known contents: the launch memory; then what the first
   stretch of host operations computes from it; then the same with the edge call's output array at what the call's
   write-backs leave (`edgeOut`: the pipeline's fold of the blocks each point wrote); then what the second stretch
   computes from that; then the same with the node call's output array at `nodeOut`. Beside the buffers ride the
   core's generator register, at some state, and its ledger of units owed, empty: neither kernel draws a random
   number or signals anyone. Each pallas_call is entered by taking its six arrays out of the buffers, and left by
   putting them back: the five inputs as found, the output at the fold of its blocks. No item writes an argument
   array, so every argument ends as launched (the frame), and the two result arrays end at `nodeOut` and `edgeOut`. -/
import proofs.«174808_j618475290959_1_alg».proof.Proof.Gen.KernelIdeal.Regions
import proofs.«174808_j618475290959_1_alg».proof.Proof.KI.Edge
import proofs.«174808_j618475290959_1_alg».proof.Proof.KI.Node
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- When the edge call is entered: the launch memory after the first stretch of host operations, read at the
    TensorCore's references. -/
abbrev atEdge (c : Dev nD) (b : Ref sig .tc) : Buf (Elt F) ((c : Thread nD τ).loc b) := V1 m c b

/-- What the edge call leaves in its output array: the fold of the blocks its points write back. -/
def edgeOut (c : Dev nD) : Buf (Elt F) ((c : Thread nD τ).loc main_v21) := (dat0 (atEdge m) c).arrAt 5 cfg0.N

/-- After the edge call: as entered, but for its output array. -/
def afterEdge (c : Dev nD) : Valuation τ sig (Elt F) := Function.update (V1 m c) main_v21 (edgeOut m c)

theorem afterEdge_out (c : Dev nD) : afterEdge m c main_v21 = edgeOut m c := by
  unfold afterEdge; exact Function.update_self ..
theorem afterEdge_ne (c : Dev nD) (b : Ref sig .tc) (h : b ≠ main_v21) : afterEdge m c b = V1 m c b := by
  unfold afterEdge
  exact Function.update_of_ne (StableHlo.devRef_ne_of_ne h : (Proc.devRef .tc b : DevRef τ sig) ≠ Proc.devRef .tc main_v21) ..

/-- When the node call is entered: after the second stretch of host operations. -/
abbrev toNode (c : Dev nD) : Valuation τ sig (Elt F) := StableHlo.after hostOps1 (afterEdge m c)
abbrev atNode (c : Dev nD) (b : Ref sig .tc) : Buf (Elt F) ((c : Thread nD τ).loc b) := toNode m c b

/-- What the node call leaves in its output array. -/
def nodeOut (c : Dev nD) : Buf (Elt F) ((c : Thread nD τ).loc main_v36) := (dat1 (atNode m) c).arrAt 5 cfg1.N

/-- After the node call: as entered, but for its output array. -/
def afterNode (c : Dev nD) : Valuation τ sig (Elt F) := Function.update (toNode m c) main_v36 (nodeOut m c)

theorem afterNode_out (c : Dev nD) : afterNode m c main_v36 = nodeOut m c := by
  unfold afterNode; exact Function.update_self ..
theorem afterNode_ne (c : Dev nD) (b : Ref sig .tc) (h : b ≠ main_v36) : afterNode m c b = toNode m c b := by
  unfold afterNode
  exact Function.update_of_ne (StableHlo.devRef_ne_of_ne h : (Proc.devRef .tc b : DevRef τ sig) ≠ Proc.devRef .tc main_v36) ..

/-- What the two calls leave, as the table of unknowns the conditional frame is stated over: after the node call
    (item 3) the contents `afterNode`, before it `afterEdge`. -/
def contents : Outs (F := F) := fun J r c => if J = 4 then afterNode m c r else afterEdge m c r

theorem V2_eq (c : Dev nD) : V2 m (contents m) c = afterEdge m c := by
  show Function.update (V1 m c) main_v21 (afterEdge m c main_v21) = afterEdge m c
  rw [afterEdge_out]; rfl
theorem V3_eq (c : Dev nD) : V3 m (contents m) c = toNode m c := by
  show StableHlo.after hostOps1 (V2 m (contents m) c) = _
  rw [V2_eq]
theorem V4_eq (c : Dev nD) : V4 m (contents m) c = afterNode m c := by
  show Function.update (V3 m (contents m) c) main_v36 (afterNode m c main_v36) = afterNode m c
  rw [afterNode_out, V3_eq]; rfl

/-! ## The proof data of the two pipelines, each at its call's entry contents -/

def pdats : (p : Fin 2) → (c : Dev nD) → Dat τ (Elt F) Unit ℕ (UR sig nD τ) ℕ (cfgs p) c
  | ⟨0, _⟩ => fun c => dat0 (atEdge m) c
  | ⟨1, _⟩ => fun c => dat1 (atNode m) c

abbrev noVariants : Variants := Variants.none
/-- No core owes another anything: no level is assigned. -/
abbrev noPairs : GSem nD τ sig → Finset Unit := fun _ => ∅
abbrev noLevel : GSem nD τ sig → Unit → ℕ := fun _ _ => 0

/-- What rides beside the buffers through every item: the generator register at some state, nothing owed. -/
def beside (c : Dev nD) : sProp 𝕄 := iprop((∃ r, prngReg c r) ∗ ∃ W, owes (c : Thread nD τ) (0 : CellTallies nD τ sig Unit) W)

/-! ## The two calls as segments -/

set_option maxHeartbeats 4000000 in
set_option backward.isDefEq.respectTransparency.types false in
/-- The edge call: entered from every unscoped buffer at `V1`, left at `afterEdge`. -/
def edgeSeg : RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (atEdge m) c).loose
  hwaits := Pipeline.hwaits_of_owed_zero _ _ _ _ noPairs noLevel 0 fun _ _ => rfl
  pre c := iprop(StableHlo.held (c : Thread nD τ) (Pipeline.ucRefs τ sig) (V1 m c) ∗ beside c)
  post c := iprop(StableHlo.held (c : Thread nD τ) (Pipeline.ucRefs τ sig) (afterEdge m c) ∗ beside c)
  X c := iprop(∃ r, prngReg c r)
  Y c := iprop(∃ r, prngReg c r)
  Z c := Pipeline.unscopedRest (Ix := Unit) (Name := ℕ) (U := UR sig nD τ) (Lvl := ℕ) spec0 c (atEdge m c)
  hentry c := by
    unfold beside
    rw [Pipeline.ownSems0_none]
    have hsplit := Pipeline.arrays_of_unscopedBufs (p := 0) (pcfgs (F := F)) adm (pdats m) launch0.win launch0.arr_whole c
      ((pdats m 0 c).share_full fun _ => rfl) (atEdge m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atEdge m c) (fun b => afterEdge m c b) ((pdats m 0 c).arrAt · cfg0.N)
      (fun w => by
        fin_cases w
        · exact ((pdats m 0 c).arrAt_in 0 rfl _).trans (afterEdge_ne m c main_v18 (by decide)).symm
        · exact ((pdats m 0 c).arrAt_in 1 rfl _).trans (afterEdge_ne m c main_arg3 (by decide)).symm
        · exact ((pdats m 0 c).arrAt_in 2 rfl _).trans (afterEdge_ne m c main_v19 (by decide)).symm
        · exact ((pdats m 0 c).arrAt_in 3 rfl _).trans (afterEdge_ne m c main_arg5 (by decide)).symm
        · exact ((pdats m 0 c).arrAt_in 4 rfl _).trans (afterEdge_ne m c main_v20 (by decide)).symm
        · exact (afterEdge_out m c).symm)
      (fun b hb => afterEdge_ne m c b fun h => hb (h ▸ Finset.mem_image.mpr ⟨5, Finset.mem_univ _, rfl⟩))
    rw [Pipeline.unscopedBufs_held] at hjoin
    unfold beside
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- The node call: entered from every unscoped buffer at `toNode`, left at `afterNode`. -/
def nodeSeg : RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (atNode m) c).loose
  hwaits := Pipeline.hwaits_of_owed_zero _ _ _ _ noPairs noLevel 1 fun _ _ => rfl
  pre c := iprop(StableHlo.held (c : Thread nD τ) (Pipeline.ucRefs τ sig) (toNode m c) ∗ beside c)
  post c := iprop(StableHlo.held (c : Thread nD τ) (Pipeline.ucRefs τ sig) (afterNode m c) ∗ beside c)
  X c := iprop(∃ r, prngReg c r)
  Y c := iprop(∃ r, prngReg c r)
  Z c := Pipeline.unscopedRest (Ix := Unit) (Name := ℕ) (U := UR sig nD τ) (Lvl := ℕ) spec1 c (atNode m c)
  hentry c := by
    unfold beside
    rw [Pipeline.ownSems0_none]
    have hsplit := Pipeline.arrays_of_unscopedBufs (p := 1) (pcfgs (F := F)) adm (pdats m) launch1.win launch1.arr_whole c
      ((pdats m 1 c).share_full fun _ => rfl) (atNode m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atNode m c) (fun b => afterNode m c b) ((pdats m 1 c).arrAt · cfg1.N)
      (fun w => by
        fin_cases w
        · exact ((pdats m 1 c).arrAt_in 0 rfl _).trans (afterNode_ne m c main_v33 (by decide)).symm
        · exact ((pdats m 1 c).arrAt_in 1 rfl _).trans (afterNode_ne m c main_arg7 (by decide)).symm
        · exact ((pdats m 1 c).arrAt_in 2 rfl _).trans (afterNode_ne m c main_v34 (by decide)).symm
        · exact ((pdats m 1 c).arrAt_in 3 rfl _).trans (afterNode_ne m c main_arg9 (by decide)).symm
        · exact ((pdats m 1 c).arrAt_in 4 rfl _).trans (afterNode_ne m c main_v35 (by decide)).symm
        · exact (afterNode_out m c).symm)
      (fun b hb => afterNode_ne m c b fun h => hb (h ▸ Finset.mem_image.mpr ⟨5, Finset.mem_univ _, rfl⟩))
    rw [Pipeline.unscopedBufs_held] at hjoin
    unfold beside
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost state: the pipelines' cells and launch tokens, nothing more. -/
abbrev launchGhost : UR sig nD τ := initOf (Pipeline.cells cfgs cellOf_inj) (Pipeline.launchToks cfgs cellOf_inj)

theorem launchGhost_deal :
    (ownU (launchGhost) : sProp 𝕄) ⊢ |={Set.univ}=> iprop(BI.own ((emb₁ : Emb (UR sig nD τ) 𝕄) launchGhost) ∗ bigSep Finset.univ (fun _ : Dev nD => (BI.emp : sProp 𝕄))) := by
  iintro Hu; imodintro
  isplitl [Hu]
  · iapply (show (ownU launchGhost : sProp 𝕄) ⊢ BI.own ((emb₁ : Emb (UR sig nD τ) 𝕄) launchGhost) from .rfl)
    iexact Hu
  iapply (show (BI.emp : sProp 𝕄) ⊢ bigSep Finset.univ (fun _ : Dev nD => (BI.emp : sProp 𝕄)) from by rw [BI.bigSep_emp_const])
  iempintro

/-- What the launch hands every core besides its buffers makes `beside` on every core. -/
theorem beside_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => beside (F := F) c) : sProp 𝕄) := by
  have hc : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ beside (F := F) c := fun c => by
    unfold beside
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => beside (F := F) c) : sProp 𝕄) :=
    bigSep_mono fun c _ => hc c
  iintro ⟨H, -⟩
  ihave H' := hmono $$ H
  imodintro
  iexact H'

/-- What rides along ends owing nothing. -/
theorem beside_owes (c : Dev nD) : beside (F := F) c ⊢ (iprop(∃ W, owes (c : Thread nD τ) (0 : CellTallies nD τ sig Unit) W) : sProp 𝕄) := by
  unfold beside
  iintro ⟨-, HO⟩; iexact HO

/-- The calls' records are entered from, and leave, the thread states the conditional frame is stated over. -/
theorem edge_pre (c : Dev nD) : iprop(StableHlo.held (c : Thread nD τ) (Pipeline.ucRefs τ sig) (V1 m c) ∗ beside c) ⊢ (edgeSeg m).pre c := .rfl
theorem edge_post (c : Dev nD) : (edgeSeg m).post c ⊢ iprop(StableHlo.held (c : Thread nD τ) (Pipeline.ucRefs τ sig) (V2 m (contents m) c) ∗ beside c) := by
  rw [V2_eq]; exact .rfl
theorem node_pre (c : Dev nD) : iprop(StableHlo.held (c : Thread nD τ) (Pipeline.ucRefs τ sig) (V3 m (contents m) c) ∗ beside c) ⊢ (nodeSeg m).pre c := by
  rw [V3_eq]; exact .rfl
theorem node_post (c : Dev nD) : (nodeSeg m).post c ⊢ iprop(StableHlo.held (c : Thread nD τ) (Pipeline.ucRefs τ sig) (V4 m (contents m) c) ∗ beside c) := by
  rw [V4_eq]; exact .rfl

/-- THE FRAME at any float instance: every weakly fair execution of the program terminates, nothing faulting, and
    every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (emb₁ : Emb (UR sig nD τ) 𝕄) () noVariants noPairs noLevel (fun _ _ => rfl) ρ (contents m) (pdats m)
    (0 : Dev nD → CellTallies nD τ sig Unit) (fun _ => (BI.emp : sProp 𝕄)) launchGhost launchGhost_deal
    (fun _ c => beside c) (beside_init ρ) beside_owes
    (edgeSeg m) (edge_pre m) (edge_post m)
    (nodeSeg m) (node_pre m) (node_post m)

/-! ## The run with the results named -/

set_option backward.isDefEq.respectTransparency.types false in
/-- The same launch, read further at the end: besides the arguments, the node call's output array holds `nodeOut`
    and the edge call's `edgeOut`. -/
theorem run_results : θ_run defs (onTc (τ := τ) (main (F := F))) ⟨m, fun _ => 0, ρ⟩ (fun r => ∀ c : Dev nD,
      r.2.mem ((c.tc : Thread nD τ).loc main_v36) = nodeOut m c
      ∧ r.2.mem ((c.tc : Thread nD τ).loc main_v21) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj (emb₁ : Emb (UR sig nD τ) 𝕄) defs₀ noVariants noPairs noLevel m ρ main
    (segs m (contents m) noVariants noPairs noLevel (fun _ c => beside c) () (pdats m) (edgeSeg m) (nodeSeg m))
    (fun c Q => by
      rewrite [main_chain c, Seg.run_eq_chain,
        show (segs m (contents m) noVariants noPairs noLevel (fun _ c => beside c) () (pdats m) (edgeSeg m) (nodeSeg m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl) (fun _ => (BI.emp : sProp 𝕄)) launchGhost launchGhost_deal
    (T₀ := fun c => iprop(StableHlo.held (c : Thread nD τ) (Pipeline.ucRefs τ sig) (V0 m c) ∗ beside c))
    (Tₙ := fun c => StableHlo.held (c : Thread nD τ) (Pipeline.ucRefs τ sig) (V4 m (contents m) c))
    (hch := fun c => ⟨.rfl, edge_pre m c, edge_post m c, node_pre m c, (node_post m c).trans (sep_mono .rfl (beside_owes c))⟩)
    (hinit := ?_) (QY := fun c s => s.mem ((c.tc : Thread nD τ).loc main_v36) = nodeOut m c ∧ s.mem ((c.tc : Thread nD τ).loc main_v21) = edgeOut m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are held at the launch memory; the rest makes `beside` on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (beside_init (F := F) ρ) $$ [Hr Hla] with HE
    · isplitl [Hr]; · iexact Hr
      iexact Hla
    imodintro
    rw [bigSep_sep']
    isplitl [Hh]; · iexact Hh
    iexact HE
  · -- the end: every buffer read off the last contents; the results there are the calls' outputs
    unfold StableHlo.held
    iintro ⟨Hh, HSI⟩
    ihave Hr := (pointsTo_read_all (Pipeline.ucRefs τ sig) (fun b => ((c : Thread nD τ).1, b)) (V4 m (contents m) c) s') $$ [Hh HSI]
    · isplitl [Hh] <;> iassumption
    icases Hr with ⟨%h, HSI⟩
    imodintro
    isplitr
    · ipureintro
      exact ⟨(h (Proc.devRef .tc main_v36) (Finset.mem_filter.mpr ⟨StableHlo.devRef_mem_tcRefs main_v36, by decide⟩)).trans
          ((congrFun (V4_eq m c) (Proc.devRef .tc main_v36)).trans (afterNode_out m c)),
        (h (Proc.devRef .tc main_v21) (Finset.mem_filter.mpr ⟨StableHlo.devRef_mem_tcRefs main_v21, by decide⟩)).trans
          ((V4_of m (contents m) c main_v21 (by decide)).trans ((V3_of m (contents m) c main_v21 (by decide)).trans
            ((congrFun (V2_eq m c) (Proc.devRef .tc main_v21)).trans (afterEdge_out m c)))),
        (h (Proc.devRef .tc main_arg0) (Finset.mem_filter.mpr ⟨StableHlo.devRef_mem_tcRefs main_arg0, by decide⟩)).trans (V4_main_arg0 m (contents m) c),
        (h (Proc.devRef .tc main_arg1) (Finset.mem_filter.mpr ⟨StableHlo.devRef_mem_tcRefs main_arg1, by decide⟩)).trans (V4_main_arg1 m (contents m) c),
        (h (Proc.devRef .tc main_arg2) (Finset.mem_filter.mpr ⟨StableHlo.devRef_mem_tcRefs main_arg2, by decide⟩)).trans (V4_main_arg2 m (contents m) c),
        (h (Proc.devRef .tc main_arg3) (Finset.mem_filter.mpr ⟨StableHlo.devRef_mem_tcRefs main_arg3, by decide⟩)).trans (V4_main_arg3 m (contents m) c),
        (h (Proc.devRef .tc main_arg4) (Finset.mem_filter.mpr ⟨StableHlo.devRef_mem_tcRefs main_arg4, by decide⟩)).trans (V4_main_arg4 m (contents m) c),
        (h (Proc.devRef .tc main_arg5) (Finset.mem_filter.mpr ⟨StableHlo.devRef_mem_tcRefs main_arg5, by decide⟩)).trans (V4_main_arg5 m (contents m) c),
        (h (Proc.devRef .tc main_arg6) (Finset.mem_filter.mpr ⟨StableHlo.devRef_mem_tcRefs main_arg6, by decide⟩)).trans (V4_main_arg6 m (contents m) c),
        (h (Proc.devRef .tc main_arg7) (Finset.mem_filter.mpr ⟨StableHlo.devRef_mem_tcRefs main_arg7, by decide⟩)).trans (V4_main_arg7 m (contents m) c),
        (h (Proc.devRef .tc main_arg8) (Finset.mem_filter.mpr ⟨StableHlo.devRef_mem_tcRefs main_arg8, by decide⟩)).trans (V4_main_arg8 m (contents m) c),
        (h (Proc.devRef .tc main_arg9) (Finset.mem_filter.mpr ⟨StableHlo.devRef_mem_tcRefs main_arg9, by decide⟩)).trans (V4_main_arg9 m (contents m) c),
        (h (Proc.devRef .tc main_arg10) (Finset.mem_filter.mpr ⟨StableHlo.devRef_mem_tcRefs main_arg10, by decide⟩)).trans (V4_main_arg10 m (contents m) c)⟩
    · iexact HSI

end Cert.KernelIdeal.Hand

end
-- ==== Proof.MlpSpec.lean ====
/- The two-layer perceptron both programs apply to every row of a matrix, as ONE function of exact
   extended reals, entry by entry:
       out[r, j] = (∑ k, max ((∑ l, x[r, l] · w1[l, k]) + b1[0, k]) 0 · w2[k, j]) + b2[0, j].
   The kernel computes it block of rows by block of rows (a matrix product into a zero accumulator,
   a bias row broadcast down the block, a maximum with zero, a second product, a second bias); the
   reference computes it on the whole matrix at once. Nothing but the order of evaluation differs, and
   an entry of the result depends on ONE row of `x` only (`mlpAt_rows`), which is what lets a block of
   rows be computed alone. The zero is kept as the float pattern it is printed with on both sides. -/
import Idealize.ShloMosaic.PureOps.Ideal
import Idealize.ShloMosaic.Lib.ValueIdx

noncomputable section

namespace Cert.Mlp

open Idealize.ShloMosaic Idealize.ShloMosaic.ValueIdx

/-- One hidden unit of one row: the row's inner product with column `k` of the first weight matrix, plus the
    first bias at `k`, cut off below at zero. -/
def hidden {R D H : ℕ} (x : (⟨2, ![R, D]⟩ : Shape).Idx → EReal) (w1 : (⟨2, ![D, H]⟩ : Shape).Idx → EReal)
    (b1 : (⟨2, ![1, H]⟩ : Shape).Idx → EReal) (r : Fin R) (k : Fin H) : EReal :=
  max ((∑ l : Fin D, x (ix2 r l) * w1 (ix2 l k)) + b1 (ix2 0 k)) (Ideal.ofBits .f32 0x00000000#32)

/-- The perceptron's output at row `r`, column `j`: the row's hidden units' inner product with column `j` of the
    second weight matrix, plus the second bias at `j`. -/
def mlpAt {R D H O : ℕ} (x : (⟨2, ![R, D]⟩ : Shape).Idx → EReal) (w1 : (⟨2, ![D, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (r : Fin R) (j : Fin O) : EReal :=
  (∑ k : Fin H, hidden x w1 b1 r k * w2 (ix2 k j)) + b2 (ix2 0 j)

/-- The perceptron's output matrix, index by index. -/
def mlp {R D H O : ℕ} (x : (⟨2, ![R, D]⟩ : Shape).Idx → EReal) (w1 : (⟨2, ![D, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) : (⟨2, ![R, O]⟩ : Shape).Idx → EReal :=
  fun i => mlpAt x w1 b1 w2 b2 (i 0) (i 1)

/-- At the index with coordinates `r`, `j` the output matrix is `mlpAt` there. -/
theorem mlp_ix2 {R D H O : ℕ} (x : (⟨2, ![R, D]⟩ : Shape).Idx → EReal) (w1 : (⟨2, ![D, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (r : Fin R) (j : Fin O) :
    mlp x w1 b1 w2 b2 (ix2 r j) = mlpAt x w1 b1 w2 b2 r j := rfl

/-- Row `r` of the output is a function of row `r` of the input alone: another input matrix that has the same
    entries on its row `r'` gives the same outputs there. -/
theorem mlpAt_rows {R R' D H O : ℕ} (x : (⟨2, ![R, D]⟩ : Shape).Idx → EReal) (x' : (⟨2, ![R', D]⟩ : Shape).Idx → EReal)
    (w1 : (⟨2, ![D, H]⟩ : Shape).Idx → EReal) (b1 : (⟨2, ![1, H]⟩ : Shape).Idx → EReal)
    (w2 : (⟨2, ![H, O]⟩ : Shape).Idx → EReal) (b2 : (⟨2, ![1, O]⟩ : Shape).Idx → EReal)
    (r : Fin R) (r' : Fin R') (j : Fin O) (hrow : ∀ l : Fin D, x (ix2 r l) = x' (ix2 r' l)) :
    mlpAt x w1 b1 w2 b2 r j = mlpAt x' w1 b1 w2 b2 r' j := by
  unfold mlpAt hidden
  simp only [hrow]

end Cert.Mlp

end
-- ==== Proof.KI.EdgeValue.lean ====
/- The edge perceptron's output array after its pallas_call, at exact values: the perceptron of the WHOLE input
   matrix, entry by entry.

   At a grid point the body's one expression — a matrix product into a zero accumulator, the first bias row
   broadcast down the block, a maximum with zero, a second product, the second bias — is the specification's
   `Cert.Mlp.mlp` of the block of rows it loaded (the changes of float format are the identity at exact values).
   Point `t` writes that back over rows 8000·t … 8000·t + 7999 of the output array; since an output row depends on
   the same input row only, that is block `t` of the perceptron of the whole matrix, and the 100 blocks cover the
   array. -/
import proofs.«174808_j618475290959_1_alg».proof.Proof.KI.Edge
import proofs.«174808_j618475290959_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's two matrix products at an index

The operand indices of a product at output index `i` and contraction index `q`, axis by axis: the left operand is read
at (row of `i`, `q`), the right one at (`q`, column of `i`). -/

theorem lhsHid0_row (i : S8000x64.Idx) (q : dot_S8000x192_S192x64_S8000x64_1_0_0_1_n_n.contr.Idx) :
    (dot_S8000x192_S192x64_S8000x64_1_0_0_1_n_n.lhsIdx i q 0).val = (i 0).val := by
  unfold DotDims.lhsIdx
  rw [dif_neg (show ¬(0 : Fin S8000x192.rank) ∈ dot_S8000x192_S192x64_S8000x64_1_0_0_1_n_n.lhsBatch by decide), dif_pos (show (0 : Fin S8000x192.rank) ∈ dot_S8000x192_S192x64_S8000x64_1_0_0_1_n_n.lhsNonContracting by decide)]
  rfl
theorem lhsHid0_col (i : S8000x64.Idx) (q : dot_S8000x192_S192x64_S8000x64_1_0_0_1_n_n.contr.Idx) :
    (dot_S8000x192_S192x64_S8000x64_1_0_0_1_n_n.lhsIdx i q 1).val = (q ⟨0, by decide⟩).val :=
  dot_S8000x192_S192x64_S8000x64_1_0_0_1_n_n.lhsIdx_val_of_single rfl i q
theorem rhsHid0_row (i : S8000x64.Idx) (q : dot_S8000x192_S192x64_S8000x64_1_0_0_1_n_n.contr.Idx) :
    (dot_S8000x192_S192x64_S8000x64_1_0_0_1_n_n.rhsIdx i q 0).val = (q ⟨0, by decide⟩).val :=
  dot_S8000x192_S192x64_S8000x64_1_0_0_1_n_n.rhsIdx_val_of_single rfl i q
theorem rhsHid0_col (i : S8000x64.Idx) (q : dot_S8000x192_S192x64_S8000x64_1_0_0_1_n_n.contr.Idx) :
    (dot_S8000x192_S192x64_S8000x64_1_0_0_1_n_n.rhsIdx i q 1).val = (i 1).val := by
  unfold DotDims.rhsIdx
  rw [dif_neg (show ¬(1 : Fin S192x64.rank) ∈ dot_S8000x192_S192x64_S8000x64_1_0_0_1_n_n.rhsBatch by decide), dif_pos (show (1 : Fin S192x64.rank) ∈ dot_S8000x192_S192x64_S8000x64_1_0_0_1_n_n.rhsNonContracting by decide)]
  rfl

/-- The first product into the zero accumulator, at row `p`, column `q`: the row's inner product with the column. -/
theorem hidProd0_apply (l : FVec Ideal S8000x192 .bf16) (r : FVec Ideal S192x64 .bf16) (p : Fin 8000) (q : Fin 64) :
    matmul dot_S8000x192_S192x64_S8000x64_1_0_0_1_n_n none l r (constant (F := Ideal) S8000x64 .f32 0x00000000#32) (ix2 p q)
      = ∑ k : Fin 192, l (ix2 p k) * r (ix2 k q) := by
  refine (Ideal.matmul_constant_zero_apply dot_S8000x192_S192x64_S8000x64_1_0_0_1_n_n none l r (ix2 p q)).trans ?_
  rw [← Equiv.sum_comp (ValueIdx.contrEquiv1 dot_S8000x192_S192x64_S8000x64_1_0_0_1_n_n 192 rfl rfl).symm]
  refine Finset.sum_congr rfl fun k _ => ?_
  have hk := ValueIdx.contrEquiv1_symm_val dot_S8000x192_S192x64_S8000x64_1_0_0_1_n_n 192 rfl rfl k
  have el : dot_S8000x192_S192x64_S8000x64_1_0_0_1_n_n.lhsIdx (ix2 p q) ((ValueIdx.contrEquiv1 dot_S8000x192_S192x64_S8000x64_1_0_0_1_n_n 192 rfl rfl).symm k) = ix2 p k := funext fun a => Fin.ext (by
    match a with
    | ⟨0, _⟩ => exact lhsHid0_row _ _
    | ⟨1, _⟩ => exact (lhsHid0_col _ _).trans hk)
  have er : dot_S8000x192_S192x64_S8000x64_1_0_0_1_n_n.rhsIdx (ix2 p q) ((ValueIdx.contrEquiv1 dot_S8000x192_S192x64_S8000x64_1_0_0_1_n_n 192 rfl rfl).symm k) = ix2 k q := funext fun a => Fin.ext (by
    match a with
    | ⟨0, _⟩ => exact (rhsHid0_row _ _).trans hk
    | ⟨1, _⟩ => exact rhsHid0_col _ _)
  rw [el, er]

theorem lhsOut0_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhsOut0_col (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhsOut0_row (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhsOut0_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The second product into the zero accumulator, at row `p`, column `q`. -/
theorem outProd0_apply (l : FVec Ideal S8000x64 .bf16) (r : FVec Ideal S64x64 .bf16) (p : Fin 8000) (q : Fin 64) :
    matmul dot_S8000x64_S64x64_S8000x64_1_0_0_1_n_n none l r (constant (F := Ideal) S8000x64 .f32 0x00000000#32) (ix2 p q)
      = ∑ k : Fin 64, l (ix2 p k) * r (ix2 k q) := by
  refine (Ideal.matmul_constant_zero_apply dot_S8000x64_S64x64_S8000x64_1_0_0_1_n_n none l r (ix2 p q)).trans ?_
  rw [← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhsOut0_row _ _
    | ⟨1, _⟩ => exact (lhsOut0_col _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhsOut0_row _ _).trans hk
    | ⟨1, _⟩ => exact rhsOut0_col _ _)
  rw [el, er]

/-- A bias row broadcast down the block reads, at row `p`, column `q`, the row's entry at column `q`. -/
theorem biasRow0_apply (b : Vec Ideal S1x64 .f32) (p : Fin 8000) (q : Fin 64) :
    broadcastTo S8000x64 b broadcasts_S1x64_S8000x64 (ix2 p q) = b (ix2 0 q) := by
  refine broadcastTo_apply b broadcasts_S1x64_S8000x64 (ix2 p q) (ix2 0 q) fun a => ?_
  match a with
  | ⟨0, _⟩ => rfl
  | ⟨1, _⟩ => rfl

/-- The body's expression of its five loaded buffers IS the perceptron of the loaded block of rows. -/
theorem pay0_eq (xa : Vec Ideal S8000x192 .f32) (xb : Vec Ideal S192x64 .f32) (xc : Vec Ideal S1x64 .f32)
    (xd : Vec Ideal S64x64 .f32) (xe : Vec Ideal S1x64 .f32) :
    k0_pay1 (F := Ideal) xa xb xc xd xe = Cert.Mlp.mlp (R := 8000) (D := 192) (H := 64) (O := 64) xa xb xc xd xe := by
  funext j
  obtain ⟨p, q, rfl⟩ : ∃ (p : Fin 8000) (q : Fin 64), j = ix2 p q := ⟨j 0, j 1, eq_ix2 j⟩
  rw [Cert.Mlp.mlp_ix2]
  unfold k0_pay1 Cert.Mlp.mlpAt Cert.Mlp.hidden
  simp only [shapeCast_self]
  refine (addf_apply _ _ _).trans ?_
  refine congrArg₂ (· + ·) ?_ (biasRow0_apply xe p q)
  refine (outProd0_apply _ _ p q).trans ?_
  refine Finset.sum_congr rfl fun k _ => ?_
  refine congrArg₂ (· * ·) ?_ rfl
  refine (truncf_apply (φ := .f32) (ψ := .bf16) _ bitsLt_bf16_f32 (ix2 p k)).trans ?_
  refine (maximumf_apply _ _ _).trans ?_
  refine congrArg₂ max ?_ rfl
  refine (addf_apply _ _ _).trans ?_
  refine congrArg₂ (· + ·) ?_ (biasRow0_apply xc p k)
  exact hidProd0_apply _ _ p k

variable (V : (c : Dev nD) → (b : Ref sig .tc) → Buf (Elt Ideal) ((c : Thread nD τ).loc b))

/-! ## From blocks to the array -/

theorem hz0 : (![0, 0] : Fin 2 → Nat) = fun _ => 0 := funext fun a => by fin_cases a <;> rfl

/-- The printed index maps, decided over the grid: the rows' window and the output's are at block (t, 0) at point `t`,
    the two weight matrices and the two bias rows at block (0, 0) throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the rows' block at point `t` is row 8000·t + p of the array. -/
theorem rows0_apply (c : Dev nD) (t : Fin cfg0.N) (y : S8000x192.Idx) (k : S800000x192.Idx)
    (hk0 : (k 0).val = t.val * 8000 + 1 * (y 0).val) (hk1 : (k 1).val = (y 1).val) :
    (iblk0 V c 0 t : Vec Ideal S8000x192 .f32) y = (V c main_v18 : S800000x192.Idx → Elt Ideal .f32) k := by
  obtain ⟨e0, e1, -⟩ := idx_facts0 t
  unfold iblk0
  rw [View.read_apply]
  show V c main_v18 (((cfg0.win 0).blk t).view.emb y) = V c main_v18 k
  refine congrArg _ (funext fun a => Fin.ext ?_)
  match a with
  | ⟨0, _⟩ => show win0_0.index t (0 : Fin 2) * 8000 + 1 * (y 0).val = (k 0).val; omega
  | ⟨1, _⟩ => show win0_0.index t (1 : Fin 2) * 192 + 1 * (y 1).val = (k 1).val; omega

/-- A window whose one block is its whole array: the block at any point IS the array. -/
theorem whole0_1 (c : Dev nD) (t : Fin cfg0.N) : (iblk0 V c 1 t : Vec Ideal S192x64 .f32) = V c main_arg3 := by
  obtain ⟨-, -, e0, e1, -⟩ := idx_facts0 t
  funext y
  unfold iblk0
  rw [View.read_apply]
  show V c main_arg3 (((cfg0.win 1).blk t).view.emb y) = V c main_arg3 y
  refine congrArg _ (funext fun a => Fin.ext ?_)
  match a with
  | ⟨0, _⟩ => show win0_1.index t (0 : Fin 2) * 192 + 1 * (y 0).val = (y 0).val; omega
  | ⟨1, _⟩ => show win0_1.index t (1 : Fin 2) * 64 + 1 * (y 1).val = (y 1).val; omega
theorem whole0_2 (c : Dev nD) (t : Fin cfg0.N) : (iblk0 V c 2 t : Vec Ideal S1x64 .f32) = V c main_v19 := by
  obtain ⟨-, -, -, -, e0, e1, -⟩ := idx_facts0 t
  funext y
  unfold iblk0
  rw [View.read_apply]
  show V c main_v19 (((cfg0.win 2).blk t).view.emb y) = V c main_v19 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem whole0_3 (c : Dev nD) (t : Fin cfg0.N) : (iblk0 V c 3 t : Vec Ideal S64x64 .f32) = V c main_arg5 := by
  obtain ⟨-, -, -, -, -, -, e0, e1, -⟩ := idx_facts0 t
  funext y
  unfold iblk0
  rw [View.read_apply]
  show V c main_arg5 (((cfg0.win 3).blk t).view.emb y) = V c main_arg5 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem whole0_4 (c : Dev nD) (t : Fin cfg0.N) : (iblk0 V c 4 t : Vec Ideal S1x64 .f32) = V c main_v20 := by
  obtain ⟨-, -, -, -, -, -, -, -, e0, e1, -⟩ := idx_facts0 t
  funext y
  unfold iblk0
  rw [View.read_apply]
  show V c main_v20 (((cfg0.win 4).blk t).view.emb y) = V c main_v20 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The perceptron of a block of rows, read at an index of the block, is the perceptron of the whole matrix at the
    index of the array the block's index lands on: the same weights and biases, and the block's row is the array's. -/
theorem mlp_block0 (A : Vec Ideal S800000x192 .f32) (B : Vec Ideal S192x64 .f32) (C : Vec Ideal S1x64 .f32)
    (D : Vec Ideal S64x64 .f32) (E : Vec Ideal S1x64 .f32)
    (xa : Vec Ideal S8000x192 .f32) (xb : Vec Ideal S192x64 .f32) (xc : Vec Ideal S1x64 .f32)
    (xd : Vec Ideal S64x64 .f32) (xe : Vec Ideal S1x64 .f32)
    (hb : xb = B) (hc : xc = C) (hd : xd = D) (he : xe = E)
    (j : S8000x64.Idx) (i : S800000x64.Idx) (hcol : (i 1).val = (j 1).val)
    (ha : ∀ l : Fin 192, xa (ix2 (j 0) l) = A (ix2 (i 0) l)) :
    Cert.Mlp.mlp (R := 8000) (D := 192) (H := 64) (O := 64) xa xb xc xd xe j
      = Cert.Mlp.mlp (R := 800000) (D := 192) (H := 64) (O := 64) A B C D E i := by
  subst hb hc hd he
  show Cert.Mlp.mlpAt xa xb xc xd xe (j 0) (j 1) = Cert.Mlp.mlpAt A xb xc xd xe (i 0) (i 1)
  rw [show i 1 = j 1 from Fin.ext hcol]
  exact Cert.Mlp.mlpAt_rows xa A xb xc xd xe (j 0) (i 0) (j 1) ha

/-- What point `t` writes back is block `t` of the perceptron of the whole arrays as the call found them. -/
theorem flushed0_eq (c : Dev nD) (t : Fin cfg0.N) :
    (dat0 (F := Ideal) V c).flushed 5 t = ((cfg0.win 5).blk t).view.read (Elt Ideal)
      (Cert.Mlp.mlp (R := 800000) (D := 192) (H := 64) (O := 64) (V c main_v18) (V c main_arg3) (V c main_v19) (V c main_arg5) (V c main_v20)) := by
  show (cfg0.win 5).cut (grid0.coords t) ((dat0 (F := Ideal) V c).after 5 t) = _
  rw [after0_5]
  unfold out0_5
  rw [View.canon_unit_zero hz0]
  simp only [View.ld_unit_zero (S := S8000x192) hz0, View.ld_unit_zero (S := S192x64) hz0, View.ld_unit_zero (S := S1x64) hz0,
    View.ld_unit_zero (S := S64x64) hz0]
  rw [pay0_eq]
  obtain ⟨-, -, -, -, -, -, -, -, -, -, e0, e1⟩ := idx_facts0 t
  funext j
  refine mlp_block0 (V c main_v18) (V c main_arg3) (V c main_v19) (V c main_arg5) (V c main_v20)
    (iblk0 V c 0 t) (iblk0 V c 1 t) (iblk0 V c 2 t) (iblk0 V c 3 t) (iblk0 V c 4 t)
    (whole0_1 V c t) (whole0_2 V c t) (whole0_3 V c t) (whole0_4 V c t)
    ((cfg0.win 5).xinj (grid0.coords t) j) (((cfg0.win 5).blk t).view.emb j) ?_ fun l => ?_
  · show win0_5.index t (1 : Fin 2) * 64 + 1 * (j 1).val = (j 1).val
    omega
  · refine rows0_apply V c t _ _ ?_ rfl
    show win0_5.index t (0 : Fin 2) * 8000 + 1 * (j 0).val = t.val * 8000 + 1 * (j 0).val
    rw [e0]

/-- An index of the output array is in point `t`'s block iff each coordinate is in the block's range on its axis. -/
theorem mem_blk0 (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v21).slice (win0_5.rect t)).set ↔ _
  rw [View.set_slice_whole, Rect.mem_set_unit]
  exact Iff.rfl

/-- The blocks cover the output array: row `r` is in the block of point `r / 8000`, which is written back. -/
theorem cover0 (i : S800000x64.Idx) :
    ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 100 := N_0
  have ht : (i 0).val / 8000 < cfg0.N := by rw [hN]; omega
  obtain ⟨-, -, -, -, -, -, -, -, -, -, e0, e1⟩ := idx_facts0 ⟨(i 0).val / 8000, ht⟩
  have e0' : win0_5.index ⟨(i 0).val / 8000, ht⟩ (0 : Fin 2) = (i 0).val / 8000 := e0
  refine ⟨⟨(i 0).val / 8000, ht⟩, flush0_5 _, ?_⟩
  rw [mem_blk0]
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    rw [e0']; omega
  | ⟨1, _⟩ =>
    show win0_5.index ⟨(i 0).val / 8000, ht⟩ (1 : Fin 2) * 64 ≤ (i 1).val ∧ (i 1).val < win0_5.index ⟨(i 0).val / 8000, ht⟩ (1 : Fin 2) * 64 + 64
    rw [e1]; omega

/-- The output array after the call: the perceptron of the whole input matrix. -/
theorem final0 (c : Dev nD) :
    (dat0 (F := Ideal) V c).arrAt 5 cfg0.N
      = Cert.Mlp.mlp (R := 800000) (D := 192) (H := 64) (O := 64) (V c main_v18) (V c main_arg3) (V c main_v19) (V c main_arg5) (V c main_v20) :=
  (dat0 (F := Ideal) V c).arrAt_eq_of_cover 5 _ (fun t _ => flushed0_eq V c t) cover0

end Cert.KernelIdeal.Hand

end
-- ==== Proof.KI.NodeValue.lean ====
/- The node perceptron's output array after its pallas_call, at exact values: the perceptron of the WHOLE input
   matrix, entry by entry.

   At a grid point the body's one expression — a matrix product into a zero accumulator, the first bias row
   broadcast down the block, a maximum with zero, a second product, the second bias — is the specification's
   `Cert.Mlp.mlp` of the block of rows it loaded (the changes of float format are the identity at exact values).
   Point `t` writes that back over rows 10000·t … 10000·t + 9999 of the output array; since an output row depends on
   the same input row only, that is block `t` of the perceptron of the whole matrix, and the 5 blocks cover the
   array. -/
import proofs.«174808_j618475290959_1_alg».proof.Proof.KI.Node
import proofs.«174808_j618475290959_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's two matrix products at an index

The operand indices of a product at output index `i` and contraction index `q`, axis by axis: the left operand is read
at (row of `i`, `q`), the right one at (`q`, column of `i`). -/

theorem lhsHid1_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsHid1_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsHid1_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsHid1_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The first product into the zero accumulator, at row `p`, column `q`: the row's inner product with the column. -/
theorem hidProd1_apply (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhsHid1_row _ _
    | ⟨1, _⟩ => exact (lhsHid1_col _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhsHid1_row _ _).trans hk
    | ⟨1, _⟩ => exact rhsHid1_col _ _)
  rw [el, er]

theorem lhsOut1_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsOut1_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsOut1_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsOut1_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The second product into the zero accumulator, at row `p`, column `q`. -/
theorem outProd1_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsOut1_row _ _
    | ⟨1, _⟩ => exact (lhsOut1_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsOut1_row _ _).trans hk
    | ⟨1, _⟩ => exact rhsOut1_col _ _)
  rw [el, er]

/-- A bias row broadcast down the block reads, at row `p`, column `q`, the row's entry at column `q`. -/
theorem biasRow1_apply (b : Vec Ideal S1x64 .f32) (p : Fin 10000) (q : Fin 64) :
    broadcastTo S10000x64 b broadcasts_S1x64_S10000x64 (ix2 p q) = b (ix2 0 q) := by
  refine broadcastTo_apply b broadcasts_S1x64_S10000x64 (ix2 p q) (ix2 0 q) fun a => ?_
  match a with
  | ⟨0, _⟩ => rfl
  | ⟨1, _⟩ => rfl

/-- The body's expression of its five loaded buffers IS the perceptron of the loaded block of rows. -/
theorem pay1_eq (xa : Vec Ideal S10000x128 .f32) (xb : Vec Ideal S128x64 .f32) (xc : Vec Ideal S1x64 .f32)
    (xd : Vec Ideal S64x64 .f32) (xe : Vec Ideal S1x64 .f32) :
    k1_pay1 (F := Ideal) xa xb xc xd xe = Cert.Mlp.mlp (R := 10000) (D := 128) (H := 64) (O := 64) xa xb xc xd xe := by
  funext j
  obtain ⟨p, q, rfl⟩ : ∃ (p : Fin 10000) (q : Fin 64), j = ix2 p q := ⟨j 0, j 1, eq_ix2 j⟩
  rw [Cert.Mlp.mlp_ix2]
  unfold k1_pay1 Cert.Mlp.mlpAt Cert.Mlp.hidden
  simp only [shapeCast_self]
  refine (addf_apply _ _ _).trans ?_
  refine congrArg₂ (· + ·) ?_ (biasRow1_apply xe p q)
  refine (outProd1_apply _ _ p q).trans ?_
  refine Finset.sum_congr rfl fun k _ => ?_
  refine congrArg₂ (· * ·) ?_ rfl
  refine (truncf_apply (φ := .f32) (ψ := .bf16) _ bitsLt_bf16_f32 (ix2 p k)).trans ?_
  refine (maximumf_apply _ _ _).trans ?_
  refine congrArg₂ max ?_ rfl
  refine (addf_apply _ _ _).trans ?_
  refine congrArg₂ (· + ·) ?_ (biasRow1_apply xc p k)
  exact hidProd1_apply _ _ p k

variable (V : (c : Dev nD) → (b : Ref sig .tc) → Buf (Elt Ideal) ((c : Thread nD τ).loc b))

/-! ## From blocks to the array -/

theorem hz1 : (![0, 0] : Fin 2 → Nat) = fun _ => 0 := funext fun a => by fin_cases a <;> rfl

/-- The printed index maps, decided over the grid: the rows' window and the output's are at block (t, 0) at point `t`,
    the two weight matrices and the two bias rows at block (0, 0) throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the rows' block at point `t` is row 10000·t + p of the array. -/
theorem rows1_apply (c : Dev nD) (t : Fin cfg1.N) (y : S10000x128.Idx) (k : S50000x128.Idx)
    (hk0 : (k 0).val = t.val * 10000 + 1 * (y 0).val) (hk1 : (k 1).val = (y 1).val) :
    (iblk1 V c 0 t : Vec Ideal S10000x128 .f32) y = (V c main_v33 : S50000x128.Idx → Elt Ideal .f32) k := by
  obtain ⟨e0, e1, -⟩ := idx_facts1 t
  unfold iblk1
  rw [View.read_apply]
  show V c main_v33 (((cfg1.win 0).blk t).view.emb y) = V c main_v33 k
  refine congrArg _ (funext fun a => Fin.ext ?_)
  match a with
  | ⟨0, _⟩ => show win1_0.index t (0 : Fin 2) * 10000 + 1 * (y 0).val = (k 0).val; omega
  | ⟨1, _⟩ => show win1_0.index t (1 : Fin 2) * 128 + 1 * (y 1).val = (k 1).val; omega

/-- A window whose one block is its whole array: the block at any point IS the array. -/
theorem whole1_1 (c : Dev nD) (t : Fin cfg1.N) : (iblk1 V c 1 t : Vec Ideal S128x64 .f32) = V c main_arg7 := by
  obtain ⟨-, -, e0, e1, -⟩ := idx_facts1 t
  funext y
  unfold iblk1
  rw [View.read_apply]
  show V c main_arg7 (((cfg1.win 1).blk t).view.emb y) = V c main_arg7 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 64 + 1 * (y 1).val = (y 1).val; omega
theorem whole1_2 (c : Dev nD) (t : Fin cfg1.N) : (iblk1 V c 2 t : Vec Ideal S1x64 .f32) = V c main_v34 := by
  obtain ⟨-, -, -, -, e0, e1, -⟩ := idx_facts1 t
  funext y
  unfold iblk1
  rw [View.read_apply]
  show V c main_v34 (((cfg1.win 2).blk t).view.emb y) = V c main_v34 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega
theorem whole1_3 (c : Dev nD) (t : Fin cfg1.N) : (iblk1 V c 3 t : Vec Ideal S64x64 .f32) = V c main_arg9 := by
  obtain ⟨-, -, -, -, -, -, e0, e1, -⟩ := idx_facts1 t
  funext y
  unfold iblk1
  rw [View.read_apply]
  show V c main_arg9 (((cfg1.win 3).blk t).view.emb y) = V c main_arg9 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem whole1_4 (c : Dev nD) (t : Fin cfg1.N) : (iblk1 V c 4 t : Vec Ideal S1x64 .f32) = V c main_v35 := by
  obtain ⟨-, -, -, -, -, -, -, -, e0, e1, -⟩ := idx_facts1 t
  funext y
  unfold iblk1
  rw [View.read_apply]
  show V c main_v35 (((cfg1.win 4).blk t).view.emb y) = V c main_v35 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The perceptron of a block of rows, read at an index of the block, is the perceptron of the whole matrix at the
    index of the array the block's index lands on: the same weights and biases, and the block's row is the array's. -/
theorem mlp_block1 (A : Vec Ideal S50000x128 .f32) (B : Vec Ideal S128x64 .f32) (C : Vec Ideal S1x64 .f32)
    (D : Vec Ideal S64x64 .f32) (E : Vec Ideal S1x64 .f32)
    (xa : Vec Ideal S10000x128 .f32) (xb : Vec Ideal S128x64 .f32) (xc : Vec Ideal S1x64 .f32)
    (xd : Vec Ideal S64x64 .f32) (xe : Vec Ideal S1x64 .f32)
    (hb : xb = B) (hc : xc = C) (hd : xd = D) (he : xe = E)
    (j : S10000x64.Idx) (i : S50000x64.Idx) (hcol : (i 1).val = (j 1).val)
    (ha : ∀ l : Fin 128, xa (ix2 (j 0) l) = A (ix2 (i 0) l)) :
    Cert.Mlp.mlp (R := 10000) (D := 128) (H := 64) (O := 64) xa xb xc xd xe j
      = Cert.Mlp.mlp (R := 50000) (D := 128) (H := 64) (O := 64) A B C D E i := by
  subst hb hc hd he
  show Cert.Mlp.mlpAt xa xb xc xd xe (j 0) (j 1) = Cert.Mlp.mlpAt A xb xc xd xe (i 0) (i 1)
  rw [show i 1 = j 1 from Fin.ext hcol]
  exact Cert.Mlp.mlpAt_rows xa A xb xc xd xe (j 0) (i 0) (j 1) ha

/-- What point `t` writes back is block `t` of the perceptron of the whole arrays as the call found them. -/
theorem flushed1_eq (c : Dev nD) (t : Fin cfg1.N) :
    (dat1 (F := Ideal) V c).flushed 5 t = ((cfg1.win 5).blk t).view.read (Elt Ideal)
      (Cert.Mlp.mlp (R := 50000) (D := 128) (H := 64) (O := 64) (V c main_v33) (V c main_arg7) (V c main_v34) (V c main_arg9) (V c main_v35)) := by
  show (cfg1.win 5).cut (grid1.coords t) ((dat1 (F := Ideal) V c).after 5 t) = _
  rw [after1_5]
  unfold out1_5
  rw [View.canon_unit_zero hz1]
  simp only [View.ld_unit_zero (S := S10000x128) hz1, View.ld_unit_zero (S := S128x64) hz1, View.ld_unit_zero (S := S1x64) hz1,
    View.ld_unit_zero (S := S64x64) hz1]
  rw [pay1_eq]
  obtain ⟨-, -, -, -, -, -, -, -, -, -, e0, e1⟩ := idx_facts1 t
  funext j
  refine mlp_block1 (V c main_v33) (V c main_arg7) (V c main_v34) (V c main_arg9) (V c main_v35)
    (iblk1 V c 0 t) (iblk1 V c 1 t) (iblk1 V c 2 t) (iblk1 V c 3 t) (iblk1 V c 4 t)
    (whole1_1 V c t) (whole1_2 V c t) (whole1_3 V c t) (whole1_4 V c t)
    ((cfg1.win 5).xinj (grid1.coords t) j) (((cfg1.win 5).blk t).view.emb j) ?_ fun l => ?_
  · show win1_5.index t (1 : Fin 2) * 64 + 1 * (j 1).val = (j 1).val
    omega
  · refine rows1_apply V c t _ _ ?_ rfl
    show win1_5.index t (0 : Fin 2) * 10000 + 1 * (j 0).val = t.val * 10000 + 1 * (j 0).val
    rw [e0]

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v36).slice (win1_5.rect t)).set ↔ _
  rw [View.set_slice_whole, Rect.mem_set_unit]
  exact Iff.rfl

/-- The blocks cover the output array: row `r` is in the block of point `r / 10000`, which is written back. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  have ht : (i 0).val / 10000 < cfg1.N := by rw [hN]; omega
  obtain ⟨-, -, -, -, -, -, -, -, -, -, e0, e1⟩ := idx_facts1 ⟨(i 0).val / 10000, ht⟩
  have e0' : win1_5.index ⟨(i 0).val / 10000, ht⟩ (0 : Fin 2) = (i 0).val / 10000 := e0
  refine ⟨⟨(i 0).val / 10000, ht⟩, flush1_5 _, ?_⟩
  rw [mem_blk1]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e0']; omega
  | ⟨1, _⟩ =>
    show win1_5.index ⟨(i 0).val / 10000, ht⟩ (1 : Fin 2) * 64 ≤ (i 1).val ∧ (i 1).val < win1_5.index ⟨(i 0).val / 10000, ht⟩ (1 : Fin 2) * 64 + 64
    rw [e1]; omega

/-- The output array after the call: the perceptron of the whole input matrix. -/
theorem final1 (c : Dev nD) :
    (dat1 (F := Ideal) V c).arrAt 5 cfg1.N
      = Cert.Mlp.mlp (R := 50000) (D := 128) (H := 64) (O := 64) (V c main_v33) (V c main_arg7) (V c main_v34) (V c main_arg9) (V c main_v35) :=
  (dat1 (F := Ideal) V c).arrAt_eq_of_cover 5 _ (fun t _ => flushed1_eq V c t) cover1

end Cert.KernelIdeal.Hand

end
-- ==== Proof.RefRead.lean ====
/- The reference program's two results as the perceptron of their inputs, entry by entry.

   The reference applies the perceptron to whole matrices: a `dot_general` (at exact values, entry (r, k) is the sum
   over l of x[r, l] · w1[l, k]), a bias broadcast from a vector through a one-row matrix, a maximum with a broadcast
   zero, a second `dot_general` and a second bias. Reading each operation at an index turns the composed term into
   the specification's formula `Cert.Mlp.mlp`: the edge result of the concatenated edge inputs, the node result of
   the concatenated node inputs (which contain the edge result's per-node mean). -/
import proofs.«174808_j618475290959_1_alg».proof.Proof.Gen.ReferenceIdeal.Run
import proofs.«174808_j618475290959_1_alg».proof.Proof.Gen.ReferenceIdeal.Read
import proofs.«174808_j618475290959_1_alg».proof.Proof.MlpSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where the reference reads its operands

The positions at which the two matrix products and the two bias broadcasts read their operands, at an index given
by its two coordinates, are again indices given by two coordinates: a product's entry (r, j) reads the left operand
along row r and the right along column j; a row broadcast reads row 0 at the same column. -/

private theorem idx2_ext {n0 n1 : Nat} {p q : (⟨2, ![n0, n1]⟩ : Shape).Idx}
    (h0 : (p 0).val = (q 0).val) (h1 : (p 1).val = (q 1).val) : p = q :=
  funext fun a => Fin.ext (by match a with | ⟨0, _⟩ => exact h0 | ⟨1, _⟩ => exact h1)

/-! ### The edge perceptron's positions -/

theorem lidx24_ix2 (r : Fin 800000) (j k : Fin 64) : lidx_main_v24 (ix2 r j) k = ix2 r k :=
  idx2_ext rfl rfl
theorem ridx24_ix2 (r : Fin 800000) (j k : Fin 64) : ridx_main_v24 (ix2 r j) k = ix2 k j :=
  idx2_ext rfl rfl
theorem idx26_ix2 (r : Fin 800000) (j : Fin 64) : idx_main_v26 (ix2 r j) = ix2 0 j :=
  idx2_ext rfl rfl
theorem lidx19_ix2 (r : Fin 800000) (k : Fin 64) (l : Fin 192) : lidx_main_v19 (ix2 r k) l = ix2 r l :=
  idx2_ext rfl rfl
theorem ridx19_ix2 (r : Fin 800000) (k : Fin 64) (l : Fin 192) : ridx_main_v19 (ix2 r k) l = ix2 l k :=
  idx2_ext rfl rfl
theorem idx21_ix2 (r : Fin 800000) (k : Fin 64) : idx_main_v21 (ix2 r k) = ix2 0 k :=
  idx2_ext rfl rfl

/-! ### The node perceptron's positions -/

theorem lidx45_ix2 (r : Fin 50000) (j k : Fin 64) : lidx_main_v45 (ix2 r j) k = ix2 r k :=
  idx2_ext rfl rfl
theorem ridx45_ix2 (r : Fin 50000) (j k : Fin 64) : ridx_main_v45 (ix2 r j) k = ix2 k j :=
  idx2_ext rfl rfl
theorem idx47_ix2 (r : Fin 50000) (j : Fin 64) : idx_main_v47 (ix2 r j) = ix2 0 j :=
  idx2_ext rfl rfl
theorem lidx40_ix2 (r : Fin 50000) (k : Fin 64) (l : Fin 128) : lidx_main_v40 (ix2 r k) l = ix2 r l :=
  idx2_ext rfl rfl
theorem ridx40_ix2 (r : Fin 50000) (k : Fin 64) (l : Fin 128) : ridx_main_v40 (ix2 r k) l = ix2 l k :=
  idx2_ext rfl rfl
theorem idx42_ix2 (r : Fin 50000) (k : Fin 64) : idx_main_v42 (ix2 r k) = ix2 0 k :=
  idx2_ext rfl rfl

/-- The edge result: the perceptron of the concatenated edge inputs, with the first-layer and second-layer biases
    entering as the one-row matrices the reference broadcasts them through. -/
theorem ref_edge (x0 : (⟨S50000x64, .f32⟩ : BufTy).Contents (Elt Ideal)) (x1 : (⟨S800000x2, .i32⟩ : BufTy).Contents (Elt Ideal))
    (x2 : (⟨S800000x64, .f32⟩ : BufTy).Contents (Elt Ideal)) (x3 : (⟨S192x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v27 (F := Ideal) x0 x1 x2 x3 x4 x5 x6
      = Cert.Mlp.mlp (R := 800000) (D := 192) (H := 64) (O := 64) (val_main_v18 (F := Ideal) x0 x1 x2) x3 (val_main_v20 (F := Ideal) x4) x5 (val_main_v25 (F := Ideal) x6) := by
  funext i
  obtain ⟨r, j, rfl⟩ : ∃ (r : Fin 800000) (j : Fin 64), i = ix2 r j := ⟨i 0, i 1, eq_ix2 i⟩
  rw [Cert.Mlp.mlp_ix2]
  unfold Cert.Mlp.mlpAt Cert.Mlp.hidden
  simp only [val_main_v27_apply, val_main_v26_apply, val_main_v24_apply, val_main_v23_apply, val_main_call0_v0_apply,
    val_main_call0_cst_apply, val_main_v22_apply, val_main_v21_apply, val_main_v19_apply,
    lidx24_ix2, ridx24_ix2, idx26_ix2, lidx19_ix2, ridx19_ix2, idx21_ix2,
    Ideal.addf_def, Ideal.maximumf_def, Ideal.ofBits_def]

/-- The node result: the perceptron of the concatenated node inputs. -/
theorem ref_node (x0 : (⟨S50000x64, .f32⟩ : BufTy).Contents (Elt Ideal)) (x1 : (⟨S800000x2, .i32⟩ : BufTy).Contents (Elt Ideal))
    (x2 : (⟨S800000x64, .f32⟩ : BufTy).Contents (Elt Ideal)) (x3 : (⟨S192x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S128x64, .f32⟩ : BufTy).Contents (Elt Ideal))
    (x8 : (⟨S64, .f32⟩ : BufTy).Contents (Elt Ideal)) (x9 : (⟨S64x64, .f32⟩ : BufTy).Contents (Elt Ideal))
    (x10 : (⟨S64, .f32⟩ : BufTy).Contents (Elt Ideal)) :
    val_main_v48 (F := Ideal) x0 x1 x2 x3 x4 x5 x6 x7 x8 x9 x10
      = Cert.Mlp.mlp (R := 50000) (D := 128) (H := 64) (O := 64) (val_main_v39 (F := Ideal) x0 x1 x2 x3 x4 x5 x6) x7 (val_main_v41 (F := Ideal) x8) x9 (val_main_v46 (F := Ideal) x10) := by
  funext i
  obtain ⟨r, j, rfl⟩ : ∃ (r : Fin 50000) (j : Fin 64), i = ix2 r j := ⟨i 0, i 1, eq_ix2 i⟩
  rw [Cert.Mlp.mlp_ix2]
  unfold Cert.Mlp.mlpAt Cert.Mlp.hidden
  simp only [val_main_v48_apply, val_main_v47_apply, val_main_v45_apply, val_main_v44_apply, val_main_call1_v0_apply,
    val_main_call1_cst_apply, val_main_v43_apply, val_main_v42_apply, val_main_v40_apply,
    lidx45_ix2, ridx45_ix2, idx47_ix2, lidx40_ix2, ridx40_ix2, idx42_ix2,
    Ideal.addf_def, Ideal.maximumf_def, Ideal.ofBits_def]

end Cert.ReferenceIdeal.RefValue

end
-- ==== Proof.KI.Bridge.lean ====
/- The idealized kernel program's two result arrays in the reference's own terms.

   The edge call's output is the perceptron of what the call found in its five input arrays; those were written by
   the first stretch of host operations, which is the SAME stretch the reference begins with (gather the two
   endpoints' features, concatenate with the edge attributes), so the input matrix is the reference's, and the two
   bias rows — a reshape of the bias vector in the kernel program, a broadcast of it in the reference — hold the same
   entries. The node call's input matrix is written by the second stretch from the edge result (the per-node mean of
   the incoming messages beside the node's own features), again the very operations the reference applies to its own
   edge result; since the two edge results are equal, so are the node inputs, and the node result is the perceptron
   of them on both sides. The shared stretches are never opened: they are the same term of equal arguments. -/
import proofs.«174808_j618475290959_1_alg».proof.Proof.KI.Run
import proofs.«174808_j618475290959_1_alg».proof.Proof.KI.EdgeValue
import proofs.«174808_j618475290959_1_alg».proof.Proof.KI.NodeValue
import proofs.«174808_j618475290959_1_alg».proof.Proof.RefRead
import Idealize.ShloMosaic.Lib.StableHlo.Run
import Idealize.ShloMosaic.Lib.Pipeline.Value
import Idealize.ShloMosaic.Lib.ValueIdx

set_option maxRecDepth 16384
set_option maxHeartbeats 3200000

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.ReferenceIdeal.Read (val_main_v18 val_main_v20 val_main_v25 val_main_v27 val_main_v39 val_main_v41 val_main_v46 val_main_v48)

variable (m : (ℓ : Loc nD τ sig) → Buf (Elt Ideal) ℓ)

/-! ## A bias row: the reshape and the broadcast of a vector agree -/

/-- A vector of 64 entries laid out as a one-row matrix by a reshape holds, at (0, k), entry k: so does its broadcast
    along a new leading axis of extent one. -/
theorem biasRow_eq (b : (⟨S64, .f32⟩ : BufTy).Contents (Elt Ideal)) (h : S64.ShapeCasts S1x64)
    (h' : Cert.ReferenceIdeal.S64.BroadcastsInDim Cert.ReferenceIdeal.S1x64 (![1] : Fin 1 → Fin Cert.ReferenceIdeal.S1x64.rank)) :
    shapeCast S1x64 b h = broadcastInDim Cert.ReferenceIdeal.S1x64 ![1] h' b := by
  funext j
  obtain ⟨z, k, rfl⟩ : ∃ (z : Fin 1) (k : Fin 64), j = ix2 z k := ⟨j 0, j 1, eq_ix2 j⟩
  obtain rfl : z = 0 := Subsingleton.elim _ _
  refine (shapeCast_apply b h (ix2 0 k) (ix1 k) ?_).trans (broadcastInDim_apply ![1] h' b (ix2 0 k) (ix1 k) ?_).symm
  · rw [Shape.rowMajor_val_one, Shape.rowMajor_val_two]
    show k.val = 0 * 64 + k.val
    omega
  · intro a
    match a with
    | ⟨0, _⟩ => show k.val = if (64 : Nat) = 1 then 0 else k.val; rw [if_neg (by decide)]

/-! ## What the edge call finds -/

theorem atEdge_x (c : Dev nD) : atEdge m c main_v18 = val_main_v18 (F := Ideal) (m ((c : Thread nD τ).loc main_arg0)) (m ((c : Thread nD τ).loc main_arg1)) (m ((c : Thread nD τ).loc main_arg2)) := by
  show StableHlo.after hostOps0 (fun b => m (c, b)) (Proc.devRef .tc main_v18) = _
  after_results
  unfold val_main_v18 Cert.ReferenceIdeal.Read.val_main_v10 Cert.ReferenceIdeal.Read.val_main_v17 Cert.ReferenceIdeal.Read.val_main_v9 Cert.ReferenceIdeal.Read.val_main_v16
    Cert.ReferenceIdeal.Read.val_main_v8 Cert.ReferenceIdeal.Read.val_main_v15 Cert.ReferenceIdeal.Read.val_main_v7 Cert.ReferenceIdeal.Read.val_main_v14
    Cert.ReferenceIdeal.Read.val_main_v6 Cert.ReferenceIdeal.Read.val_main_v13 Cert.ReferenceIdeal.Read.val_main_v5 Cert.ReferenceIdeal.Read.val_main_v12
    Cert.ReferenceIdeal.Read.val_main_v4 Cert.ReferenceIdeal.Read.val_main_v11 Cert.ReferenceIdeal.Read.val_main_v1 Cert.ReferenceIdeal.Read.val_main_v3
    Cert.ReferenceIdeal.Read.val_main_v0 Cert.ReferenceIdeal.Read.val_main_v2 Cert.ReferenceIdeal.Read.val_main_c Cert.ReferenceIdeal.Read.val_main_c_0
    Cert.ReferenceIdeal.Read.val_main_c_1 Cert.ReferenceIdeal.Read.val_main_c_2
  rfl
theorem atEdge_w1 (c : Dev nD) : atEdge m c main_arg3 = (m ((c : Thread nD τ).loc main_arg3)) := (V1_of m c main_arg3 (by decide)).trans rfl
theorem atEdge_w2 (c : Dev nD) : atEdge m c main_arg5 = (m ((c : Thread nD τ).loc main_arg5)) := (V1_of m c main_arg5 (by decide)).trans rfl
theorem atEdge_b1 (c : Dev nD) : atEdge m c main_v19 = val_main_v20 (F := Ideal) (m ((c : Thread nD τ).loc main_arg4)) := by
  show StableHlo.after hostOps0 (fun b => m (c, b)) (Proc.devRef .tc main_v19) = _
  after_results
  exact biasRow_eq _ _ _
theorem atEdge_b2 (c : Dev nD) : atEdge m c main_v20 = val_main_v25 (F := Ideal) (m ((c : Thread nD τ).loc main_arg6)) := by
  show StableHlo.after hostOps0 (fun b => m (c, b)) (Proc.devRef .tc main_v20) = _
  after_results
  exact biasRow_eq _ _ _

/-- The edge call's output array is the reference's edge result of the same arguments. -/
theorem edgeOut_eq (c : Dev nD) : edgeOut (F := Ideal) m c
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold edgeOut
  rw [final0, atEdge_x, atEdge_w1, atEdge_w2, atEdge_b1, atEdge_b2, Cert.ReferenceIdeal.RefValue.ref_edge]

/-! ## What the node call finds -/

theorem atNode_x (c : Dev nD) : atNode m c main_v33
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (afterEdge m c) (Proc.devRef .tc main_v33) = _
  generalize hW : afterEdge m c = W
  after_results
  subst hW
  rw [afterEdge_out, edgeOut_eq, afterEdge_ne m c main_arg0 (by decide), afterEdge_ne m c main_v3 (by decide),
    V1_of m c main_arg0 (by decide),
    show V1 m c main_v3 = Cert.ReferenceIdeal.Read.val_main_v3 (F := Ideal) (m ((c : Thread nD τ).loc main_arg1)) from by
      show StableHlo.after hostOps0 (fun b => m (c, b)) (Proc.devRef .tc main_v3) = _
      after_results
      rfl]
  unfold val_main_v39 Cert.ReferenceIdeal.Read.val_main_v38 Cert.ReferenceIdeal.Read.val_main_v30 Cert.ReferenceIdeal.Read.val_main_v37 Cert.ReferenceIdeal.Read.val_main_v36
    Cert.ReferenceIdeal.Read.val_main_v35 Cert.ReferenceIdeal.Read.val_main_v34 Cert.ReferenceIdeal.Read.val_main_v33 Cert.ReferenceIdeal.Read.val_main_v32
    Cert.ReferenceIdeal.Read.val_main_v31 Cert.ReferenceIdeal.Read.val_main_v29 Cert.ReferenceIdeal.Read.val_main_v28 Cert.ReferenceIdeal.Read.val_main_cst
    Cert.ReferenceIdeal.Read.val_main_cst_3 Cert.ReferenceIdeal.Read.val_main_cst_4 Cert.ReferenceIdeal.Read.val_main_cst_5
  rfl
theorem atNode_w1 (c : Dev nD) : atNode m c main_arg7 = (m ((c : Thread nD τ).loc main_arg7)) :=
  (congrFun (V3_eq m c) (Proc.devRef .tc main_arg7)).symm.trans ((V3_of m (contents m) c main_arg7 (by decide)).trans
    ((V2_of m (contents m) c main_arg7 (by decide)).trans ((V1_of m c main_arg7 (by decide)).trans rfl)))
theorem atNode_w2 (c : Dev nD) : atNode m c main_arg9 = (m ((c : Thread nD τ).loc main_arg9)) :=
  (congrFun (V3_eq m c) (Proc.devRef .tc main_arg9)).symm.trans ((V3_of m (contents m) c main_arg9 (by decide)).trans
    ((V2_of m (contents m) c main_arg9 (by decide)).trans ((V1_of m c main_arg9 (by decide)).trans rfl)))
theorem atNode_b1 (c : Dev nD) : atNode m c main_v34 = val_main_v41 (F := Ideal) (m ((c : Thread nD τ).loc main_arg8)) := by
  show StableHlo.after hostOps1 (afterEdge m c) (Proc.devRef .tc main_v34) = _
  generalize hW : afterEdge m c = W
  after_results
  subst hW
  rw [afterEdge_ne m c main_arg8 (by decide), V1_of m c main_arg8 (by decide)]
  exact biasRow_eq _ _ _
theorem atNode_b2 (c : Dev nD) : atNode m c main_v35 = val_main_v46 (F := Ideal) (m ((c : Thread nD τ).loc main_arg10)) := by
  show StableHlo.after hostOps1 (afterEdge m c) (Proc.devRef .tc main_v35) = _
  generalize hW : afterEdge m c = W
  after_results
  subst hW
  rw [afterEdge_ne m c main_arg10 (by decide), V1_of m c main_arg10 (by decide)]
  exact biasRow_eq _ _ _

/-- The node call's output array is the reference's node result of the same arguments. -/
theorem nodeOut_eq (c : Dev nD) : nodeOut (F := Ideal) m c
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold nodeOut
  rw [final1, atNode_x, atNode_w1, atNode_w2, atNode_b1, atNode_b2, Cert.ReferenceIdeal.RefValue.ref_node]

end Cert.KernelIdeal.Hand

end
-- ==== Proof.lean ====
/- A message-passing layer of a graph network, as a Pallas kernel program and as plain array code, computes the same
   two arrays over the exact extended reals: per edge, a two-layer perceptron of the two endpoints' features and the
   edge's attributes; per node, a two-layer perceptron of the node's features and the mean of its incoming edge
   results.

   The kernel program runs each perceptron as a pallas_call over blocks of rows (8000 edges, 10000 nodes at a time),
   casting to bfloat16 before each matrix product — the identity at exact values — and does the gathers, the
   scatter-added mean and the concatenations on the host exactly as the reference does. A perceptron's output row
   depends on its input row alone, so computing it block by block gives the whole-matrix result; the matrix unit's
   product into a zero accumulator and the host's `dot_general` are the same sums. No law beyond reading both sides
   index by index is used, and the precondition (finite inputs) is never opened.

   The frames: each pallas_call's body loads whole staging buffers and stores one whole buffer, the pipelines fetch
   and write back blocks that lie inside their arrays, and no item of either program writes an argument array. -/
import proofs.«174808_j618475290959_1_alg».proof.Defs
import proofs.«174808_j618475290959_1_alg».proof.Proof.Gen.Kernel
import proofs.«174808_j618475290959_1_alg».proof.Proof.Gen.KernelIdeal
import proofs.«174808_j618475290959_1_alg».proof.Proof.Gen.ReferenceIdeal
import proofs.«174808_j618475290959_1_alg».proof.Proof.Gen.Pre_finite_inputs
import proofs.«174808_j618475290959_1_alg».proof.Proof.Gen.ReferenceIdeal.Run
import proofs.«174808_j618475290959_1_alg».proof.Proof.Gen.ReferenceIdeal.Read
import proofs.«174808_j618475290959_1_alg».proof.Proof.K.Run
import proofs.«174808_j618475290959_1_alg».proof.Proof.KI.Run
import proofs.«174808_j618475290959_1_alg».proof.Proof.KI.Bridge
import Idealize.ShloMosaic.Adequacy
import Idealize.ShloMosaic.Init

set_option maxHeartbeats 3200000

noncomputable section

namespace Cert.Proof

open Idealize.ShloMosaic Idealize.SL.Sem

/-- The word-level kernel program runs to its end, faults nowhere and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the node result at the node
    pallas_call's output array and the edge result at the edge pallas_call's: the kernel program's run names them, the
    reference's run ends at the same functions of the same arguments. -/
theorem algebraic : Cert.algebraic_KernelIdeal_ReferenceIdeal := by
  intro m ρ m' ρ' _ hagree
  refine ⟨fun c => Cert.KernelIdeal.Hand.nodeOut (F := Ideal) m c, fun c => Cert.KernelIdeal.Hand.edgeOut (F := Ideal) m c,
    Cert.KernelIdeal.Hand.run_results m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10⟩ := hagree c
  refine ⟨(h c).1.trans ?_, (h c).2.1.trans ((Cert.ReferenceIdeal.Read.val_main_v27_eq _ _ _ _ _ _ _).trans ?_), (h c).2.2⟩
  · show _ = Cert.KernelIdeal.Hand.nodeOut (F := Ideal) m c
    rw [Cert.ReferenceIdeal.Read.val_main_v48_eq, Cert.KernelIdeal.Hand.nodeOut_eq, h0, h1, h2, h3, h4, h5, h6, h7, h8, h9, h10]
  · show _ = Cert.KernelIdeal.Hand.edgeOut (F := Ideal) m c
    rw [Cert.KernelIdeal.Hand.edgeOut_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
